-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768 : Shape := ⟨1, ![32768]⟩
abbrev S1000x512 : Shape := ⟨2, ![1000, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S32768x512 .f32) (main_arg1 : IVec S32768 32) (main_arg2 : FVec F S1000x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S1000x512 .f32 := Host.absf main_arg2
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_c_2 : IVec S_ 32 := constantI S_ 32 0#32
  let main_v9 : IVec S32768 32 := broadcastInDim S32768 ![] bcast_S_S32768 main_c_2
  let main_v10 : IVec S32768 1 := cmpi .sge main_arg1 main_v9
  let main_c_3 : IVec S_ 32 := constantI S_ 32 1000#32
  let main_v11 : IVec S32768 32 := broadcastInDim S32768 ![] bcast_S_S32768 main_c_3
  let main_v12 : IVec S32768 1 := cmpi .slt main_arg1 main_v11
  let main_v13 : IVec S32768 1 := andi main_v10 main_v12
  let main_c_4 : IVec S_ 1 := constantI S_ 1 1#1
  let main_v14 : IVec S_ 1 := (fun x v => Host.reduce IntOp.andi x v reducesTo_S32768_S_d0 h_S_) main_v13 main_c_4
  let main_v15 : IVec S_ 1 := andi main_v8 main_v14
  main_v15
-- ==== Kernel.lean ====
abbrev S32768x512 : Shape := ⟨2, ![32768, 512]⟩
abbrev S32768 : Shape := ⟨1, ![32768]⟩
abbrev S1000x512 : Shape := ⟨2, ![1000, 512]⟩
abbrev S32768x1 : Shape := ⟨2, ![32768, 1]⟩
abbrev S2x8x512 : Shape := ⟨3, ![2, 8, 512]⟩
abbrev S2048x512 : Shape := ⟨2, ![2048, 512]⟩
abbrev S2048x1 : Shape := ⟨2, ![2048, 1]⟩
abbrev S1x8x512 : Shape := ⟨3, ![1, 8, 512]⟩
abbrev S2048x1000 : Shape := ⟨2, ![2048, 1000]⟩
abbrev S2048 : Shape := ⟨1, ![2048]⟩
abbrev S1x2048x1 : Shape := ⟨3, ![1, 2048, 1]⟩
abbrev S1 : Shape := ⟨1, ![1]⟩
abbrev S1x1x1 : Shape := ⟨3, ![1, 1, 1]⟩
abbrev S512 : Shape := ⟨1, ![512]⟩
abbrev S1x512 : Shape := ⟨2, ![1, 512]⟩
abbrev S8x512 : Shape := ⟨2, ![8, 512]⟩
abbrev S2x1x1 : Shape := ⟨3, ![2, 1, 1]⟩
abbrev S2 : Shape := ⟨1, ![2]⟩
abbrev S_ : Shape := ⟨0, ![]⟩
abbrev S2x1x512 : Shape := ⟨3, ![2, 1, 512]⟩
abbrev S2x512 : Shape := ⟨2, ![2, 512]⟩

abbrev nBuf : Space → Nat
  | .hbm => 54
  | .vmem => 9
  | .smem => 0
  | _ => 0

abbrev bufTy : (tb : Table) → Fin (tcTables nBuf tb) → BufTy
  | .hbm, ⟨0, _⟩ => ⟨S32768x512, .f32⟩
  | .hbm, ⟨1, _⟩ => ⟨S32768, .i32⟩
  | .hbm, ⟨2, _⟩ => ⟨S1000x512, .f32⟩
  | .hbm, ⟨3, _⟩ => ⟨S32768x1, .i32⟩
  | .hbm, ⟨4, _⟩ => ⟨S1000x512, .bf16⟩
  | .hbm, ⟨5, _⟩ => ⟨S1000x512, .f32⟩
  | .hbm, ⟨6, _⟩ => ⟨S1000x512, .f32⟩
  | .hbm, ⟨7, _⟩ => ⟨S1000x512, .bf16⟩
  | .hbm, ⟨8, _⟩ => ⟨S2x8x512, .f32⟩
  | .hbm, ⟨9, _⟩ => ⟨S2x1x1, .f32⟩
  | .hbm, ⟨10, _⟩ => ⟨S2, .f32⟩
  | .hbm, ⟨11, _⟩ => ⟨S_, .f32⟩
  | .hbm, ⟨12, _⟩ => ⟨S_, .f32⟩
  | .hbm, ⟨13, _⟩ => ⟨S2x1x1, .f32⟩
  | .hbm, ⟨14, _⟩ => ⟨S2, .f32⟩
  | .hbm, ⟨15, _⟩ => ⟨S_, .f32⟩
  | .hbm, ⟨16, _⟩ => ⟨S_, .f32⟩
  | .hbm, ⟨17, _⟩ => ⟨S2x1x1, .f32⟩
  | .hbm, ⟨18, _⟩ => ⟨S2, .f32⟩
  | .hbm, ⟨19, _⟩ => ⟨S_, .f32⟩
  | .hbm, ⟨20, _⟩ => ⟨S_, .f32⟩
  | .hbm, ⟨21, _⟩ => ⟨S2x1x512, .f32⟩
  | .hbm, ⟨22, _⟩ => ⟨S2x512, .f32⟩
  | .hbm, ⟨23, _⟩ => ⟨S_, .f32⟩
  | .hbm, ⟨24, _⟩ => ⟨S512, .f32⟩
  | .hbm, ⟨25, _⟩ => ⟨S2x1x512, .f32⟩
  | .hbm, ⟨26, _⟩ => ⟨S2x512, .f32⟩
  | .hbm, ⟨27, _⟩ => ⟨S_, .f32⟩
  | .hbm, ⟨28, _⟩ => ⟨S512, .f32⟩
  | .hbm, ⟨29, _⟩ => ⟨S_, .f32⟩
  | .hbm, ⟨30, _⟩ => ⟨S_, .f32⟩
  | .hbm, ⟨31, _⟩ => ⟨S1x512, .f32⟩
  | .hbm, ⟨32, _⟩ => ⟨S512, .f32⟩
  | .hbm, ⟨33, _⟩ => ⟨S1x512, .f32⟩
  | .hbm, ⟨34, _⟩ => ⟨S512, .f32⟩
  | .hbm, ⟨35, _⟩ => ⟨S512, .f32⟩
  | .hbm, ⟨36, _⟩ => ⟨S_, .f32⟩
  | .hbm, ⟨37, _⟩ => ⟨S_, .f32⟩
  | .hbm, ⟨38, _⟩ => ⟨S512, .f32⟩
  | .hbm, ⟨39, _⟩ => ⟨S512, .f32⟩
  | .hbm, ⟨40, _⟩ => ⟨S512, .f32⟩
  | .hbm, ⟨41, _⟩ => ⟨S_, .f32⟩
  | .hbm, ⟨42, _⟩ => ⟨S_, .f32⟩
  | .hbm, ⟨43, _⟩ => ⟨S512, .f32⟩
  | .hbm, ⟨44, _⟩ => ⟨S512, .f32⟩
  | .hbm, ⟨45, _⟩ => ⟨S512, .f32⟩
  | .hbm, ⟨46, _⟩ => ⟨S512, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x1, .i32⟩
  | .local _ .vmem, ⟨3, _⟩ => ⟨S2048x1, .i32⟩
  | .local _ .vmem, ⟨4, _⟩ => ⟨S1000x512, .bf16⟩
  | .local _ .vmem, ⟨5, _⟩ => ⟨S1000x512, .bf16⟩
  | .local _ .vmem, ⟨6, _⟩ => ⟨S1x8x512, .f32⟩
  | .local _ .vmem, ⟨7, _⟩ => ⟨S1x8x512, .f32⟩
  | .local _ .vmem, ⟨8, _⟩ => ⟨S1x8x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v82 : BitVec 1 := Scalar.cmpi .eq arg1 c7_i32
  let v83 : BitVec 32 := Scalar.extui v82
  let c0_i32_25 : BitVec 32 := 0#32
  let v84 : BitVec 1 := Scalar.cmpi .ne v83 c0_i32_25
  v84

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1000x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1000x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32768_S32768x1 : S32768.ShapeCasts S32768x1
  bitsLt_bf16_f32 : FTy.bits .bf16 < FTy.bits .f32
  inb_S1x8x512_S1x8x512_0_0_0 : ∀ a, (![0, 0, 0] : Fin 3 → Nat) a + S1x8x512.size a ≤ S1x8x512.size a
  h_S1x8x512 : 0 < S1x8x512.numel
  shapeCasts_S1x8x512_S1x8x512 : S1x8x512.ShapeCasts S1x8x512
  inb_S2048x512_S2048x512_0_0 : ∀ a, (![0, 0] : Fin 2 → Nat) a + S2048x512.size a ≤ S2048x512.size a
  h_S2048x512 : 0 < S2048x512.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1000_d1_w32 : S2048x1000.Iotas .tc 32 [1]
  broadcasts_S2048x1_S2048x1000 : S2048x1.Broadcasts S2048x1000
  natLt_1_32 : 1 < 32
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  reduces_S2048x512_S2048 : S2048x512.Reduces [1] S2048
  shapeCasts_S2048_S2048x1 : S2048.ShapeCasts S2048x1
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  broadcasts_S2048x1_S2048x512 : S2048x1.Broadcasts S2048x512
  reduces_S2048x512_S512 : S2048x512.Reduces [0] S512
  iota_S1x512_d1_w32 : S1x512.Iotas .tc 32 [1]
  shapeCasts_S1x512_S512 : S1x512.ShapeCasts S512
  shapeCasts_S512_S1x512 : S512.ShapeCasts S1x512
  concatenates_S1x512_S1x512_S1x512_S1x512_S1x512_S1x512_S1x512_S1x512_S8x512_d0 : Shape.Concatenates [S1x512, S1x512, S1x512, S1x512, S1x512, S1x512, S1x512, S1x512] S8x512 0
  shapeCasts_S8x512_S1x8x512 : S8x512.ShapeCasts S1x8x512
  slices_S2x8x512_S2x1x1_0_0_0 : S2x8x512.Slices ![0, 0, 0] S2x1x1
  shapeCasts_S2x1x1_S2 : S2x1x1.ShapeCasts S2
  reducesTo_S2_S_d0 : S2.ReducesTo [0] S_
  h_S_ : 0 < S_.numel
  slices_S2x8x512_S2x1x1_0_1_0 : S2x8x512.Slices ![0, 1, 0] S2x1x1
  slices_S2x8x512_S2x1x1_0_2_0 : S2x8x512.Slices ![0, 2, 0] S2x1x1
  slices_S2x8x512_S2x1x512_0_3_0 : S2x8x512.Slices ![0, 3, 0] S2x1x512
  shapeCasts_S2x1x512_S2x512 : S2x1x512.ShapeCasts S2x512
  reducesTo_S2x512_S512_d0 : S2x512.ReducesTo [0] S512
  slices_S2x8x512_S2x1x512_0_4_0 : S2x8x512.Slices ![0, 4, 0] S2x1x512
  slices_S1000x512_S1x512_998_0 : S1000x512.Slices ![998, 0] S1x512
  slices_S1000x512_S1x512_999_0 : S1000x512.Slices ![999, 0] S1x512
  bcast_S_S512 : S_.BroadcastsInDim S512 (![] : Fin 0 → Fin S512.rank)
  reducesTo_S512_S_d0 : S512.ReducesTo [0] S_
  dot_S2048x1000_S1000x512_S2048x512_1_0_0_1_n_n_wf : DotDims.WF S2048x1000 S1000x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S32768x1.size a
  hwx0_1 : ∀ i : grid0.Coords, EltTy.bits .i32 = 32 ∨ (Rect.block (s := S32768x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S1000x512.size a
  hwx0_2 : ∀ i : grid0.Coords, EltTy.bits .bf16 = 32 ∨ (Rect.block (s := S1000x512) S1000x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S1000x512.size a
  hwx0_3 : ∀ i : grid0.Coords, EltTy.bits .bf16 = 32 ∨ (Rect.block (s := S1000x512) S1000x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x512.size a ≤ S2x8x512.size a
  hwx0_4 : ∀ i : grid0.Coords, EltTy.bits .f32 = 32 ∨ (Rect.block (s := S2x8x512) S1x8x512.size (cc0_transform_4 i) (hinb0_4 i)).WholeWords (EltTy.packing .f32)

variable [Facts₀]

def dot_S2048x1000_S1000x512_S2048x512_1_0_0_1_n_n : DotDims S2048x1000 S1000x512 S2048x512 where
  lhsContracting := [1]
  rhsContracting := [0]
  lhsNonContracting := [0]
  rhsNonContracting := [1]
  lhsBatch := []
  rhsBatch := []
  wf := dot_S2048x1000_S1000x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1000x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x8x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32768x512 : Shape := ⟨2, ![32768, 512]⟩
abbrev S32768 : Shape := ⟨1, ![32768]⟩
abbrev S1000x512 : Shape := ⟨2, ![1000, 512]⟩
abbrev S_ : Shape := ⟨0, ![]⟩
abbrev S32768x1 : Shape := ⟨2, ![32768, 1]⟩
abbrev S1000 : Shape := ⟨1, ![1000]⟩
abbrev S1000x1 : Shape := ⟨2, ![1000, 1]⟩
abbrev S1x512 : Shape := ⟨2, ![1, 512]⟩
abbrev S512 : Shape := ⟨1, ![512]⟩

abbrev nBuf : Space → Nat
  | .hbm => 60
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768, .i32⟩
  | .hbm, ⟨2, _⟩ => ⟨S1000x512, .f32⟩
  | .hbm, ⟨3, _⟩ => ⟨S_, .i32⟩
  | .hbm, ⟨4, _⟩ => ⟨S32768, .i32⟩
  | .hbm, ⟨5, _⟩ => ⟨S32768, .i1⟩
  | .hbm, ⟨6, _⟩ => ⟨S_, .i32⟩
  | .hbm, ⟨7, _⟩ => ⟨S32768, .i32⟩
  | .hbm, ⟨8, _⟩ => ⟨S32768, .i32⟩
  | .hbm, ⟨9, _⟩ => ⟨S32768, .i32⟩
  | .hbm, ⟨10, _⟩ => ⟨S32768x1, .i32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S_, .f32⟩
  | .hbm, ⟨15, _⟩ => ⟨S32768, .f32⟩
  | .hbm, ⟨16, _⟩ => ⟨S32768, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S32768, .f32⟩
  | .hbm, ⟨21, _⟩ => ⟨S32768, .f32⟩
  | .hbm, ⟨22, _⟩ => ⟨S_, .f32⟩
  | .hbm, ⟨23, _⟩ => ⟨S32768, .f32⟩
  | .hbm, ⟨24, _⟩ => ⟨S32768, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1000x512, .f32⟩
  | .hbm, ⟨31, _⟩ => ⟨S32768x1, .i32⟩
  | .hbm, ⟨32, _⟩ => ⟨S1000x512, .f32⟩
  | .hbm, ⟨33, _⟩ => ⟨S_, .f32⟩
  | .hbm, ⟨34, _⟩ => ⟨S32768, .f32⟩
  | .hbm, ⟨35, _⟩ => ⟨S_, .f32⟩
  | .hbm, ⟨36, _⟩ => ⟨S1000, .f32⟩
  | .hbm, ⟨37, _⟩ => ⟨S32768x1, .i32⟩
  | .hbm, ⟨38, _⟩ => ⟨S1000, .f32⟩
  | .hbm, ⟨39, _⟩ => ⟨S1000x512, .f32⟩
  | .hbm, ⟨40, _⟩ => ⟨S_, .f32⟩
  | .hbm, ⟨41, _⟩ => ⟨S_, .f32⟩
  | .hbm, ⟨42, _⟩ => ⟨S1000, .f32⟩
  | .hbm, ⟨43, _⟩ => ⟨S1000, .f32⟩
  | .hbm, ⟨44, _⟩ => ⟨S1000x1, .f32⟩
  | .hbm, ⟨45, _⟩ => ⟨S1000x512, .f32⟩
  | .hbm, ⟨46, _⟩ => ⟨S1000x512, .f32⟩
  | .hbm, ⟨47, _⟩ => ⟨S1x512, .f32⟩
  | .hbm, ⟨48, _⟩ => ⟨S512, .f32⟩
  | .hbm, ⟨49, _⟩ => ⟨S1x512, .f32⟩
  | .hbm, ⟨50, _⟩ => ⟨S512, .f32⟩
  | .hbm, ⟨51, _⟩ => ⟨S512, .f32⟩
  | .hbm, ⟨52, _⟩ => ⟨S512, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_6 : Ref sig .tc := ⟨.hbm, 33, rfl⟩
abbrev main_v17 : Ref sig .tc := ⟨.hbm, 34, rfl⟩
abbrev main_cst_7 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_8 : Ref sig .tc := ⟨.hbm, 40, rfl⟩
abbrev main_call1_v0 : Ref sig .tc := ⟨.hbm, 41, rfl⟩
abbrev main_call1_v1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_9 : Ref sig .tc := ⟨.hbm, 53, rfl⟩
abbrev main_v32 : Ref sig .tc := ⟨.hbm, 54, rfl⟩
abbrev main_v33 : Ref sig .tc := ⟨.hbm, 55, rfl⟩
abbrev main_cst_10 : Ref sig .tc := ⟨.hbm, 56, rfl⟩
abbrev main_v34 : Ref sig .tc := ⟨.hbm, 57, rfl⟩
abbrev main_cst_11 : Ref sig .tc := ⟨.hbm, 58, rfl⟩
abbrev main_v35 : Ref sig .tc := ⟨.hbm, 59, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  reducesTo_S32768x512_S32768_d1 : S32768x512.ReducesTo [1] S32768
  h_S_ : 0 < S_.numel
  reducesTo_S32768_S_d0 : S32768.ReducesTo [0] S_
  bcast_S_S1000x512 : S_.BroadcastsInDim S1000x512 (![] : Fin 0 → Fin S1000x512.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  slices_S1000x512_S1x512_998_0 : S1000x512.Slices ![998, 0] S1x512
  shapeCasts_S1x512_S512 : S1x512.ShapeCasts S512
  slices_S1000x512_S1x512_999_0 : S1000x512.Slices ![999, 0] S1x512
  reducesTo_S512_S_d0 : S512.ReducesTo [0] S_
  gather_S1000x512_S32768x1_S32768x512_1_0_n_n_0_1_1512_wf : GatherDims.WF S1000x512 S32768x1 S32768x512 [1] [0] [] [0] [] 1 ![1, 512]
  scatter_S1000x512_S32768x1_S32768x512_1_0_0_1_wf : ScatterDims.WF S1000x512 S32768x1 S32768x512 [1] [0] [0] 1
  scatter_S1000_S32768x1_S32768_n_0_0_1_wf : ScatterDims.WF S1000 S32768x1 S32768 [] [0] [0] 1

variable [Facts₀]

def gather_S1000x512_S32768x1_S32768x512_1_0_n_n_0_1_1512 : GatherDims S1000x512 S32768x1 S32768x512 where
  offsetDims := [1]
  collapsedSliceDims := [0]
  operandBatchingDims := []
  startIndicesBatchingDims := []
  startIndexMap := [0]
  indexVectorDim := 1
  sliceSizes := ![1, 512]
  wf := gather_S1000x512_S32768x1_S32768x512_1_0_n_n_0_1_1512_wf
def scatter_S1000x512_S32768x1_S32768x512_1_0_0_1 : ScatterDims S1000x512 S32768x1 S32768x512 where
  updateWindowDims := [1]
  insertedWindowDims := [0]
  scatterDimsToOperandDims := [0]
  indexVectorDim := 1
  wf := scatter_S1000x512_S32768x1_S32768x512_1_0_0_1_wf
def scatter_S1000_S32768x1_S32768_n_0_0_1 : ScatterDims S1000 S32768x1 S32768 where
  updateWindowDims := []
  insertedWindowDims := [0]
  scatterDimsToOperandDims := [0]
  indexVectorDim := 1
  wf := scatter_S1000_S32768x1_S32768_n_0_0_1_wf

class Facts : Prop extends Facts₀ where

variable [Facts]
-- ==== Proof.KPieces.lean ====
/-
  What one run of the body leaves behind, as values. The accumulator block is stored whole once per grid point: its new
  contents are the old contents plus the point's packed block of partial sums (the first point of each half first stores
  zeros and adds to those). At the last point of a half the output block is stored whole with what the accumulator then holds.
-/
import proofs.«409271_j34608846471397_2_alg».proof.Proof.Gen.KernelIdeal.Frame
import Idealize.ShloMosaic.Lib.Pipeline.Value
import Idealize.ShloMosaic.Lib.Tactic

noncomputable section

namespace Cert.KernelIdeal.Acc

open Idealize.ShloMosaic Idealize.ShloMosaic.TcCoe Idealize.SL.Sem
open Idealize.ShloMosaic.Pipeline (Dat)
open Cert.KernelIdeal Cert.KernelIdeal.Gen

variable {F : FTy → Type} [FloatOps F]

theorem hz : (![0, 0, 0] : Fin 3 → Nat) = fun _ => 0 := funext fun a => by fin_cases a <;> rfl

/-- One point's update of the accumulator: the old contents plus the point's packed partial sums, as the body computes it
    from the point's four input blocks. -/
def step (x0 : Vec F S2048x512 .f32) (x1 : Vec F S2048x1 .i32) (x2 x3 : Vec F S1000x512 .bf16) (acc : Vec F S1x8x512 .f32) :
    Vec F S1x8x512 .f32 :=
  k0_pay6 x0 (k0_pay3 x1) (k0_pay4 x1) (k0_pay5 x0 x1 x2 x3) acc

/-- A middle point of a half leaves the accumulator at the update of what it found there. -/
theorem sout_B (c : Dev nD) (i : grid0.Coords) (a2 : Memref sig .tc .vmem S2048x512 .f32) (h2 : a2.IsWhole) (a3 : Memref sig .tc .vmem S2048x1 .i32) (h3 : a3.IsWhole) (a4 : Memref sig .tc .vmem S1000x512 .bf16) (h4 : a4.IsWhole) (a5 : Memref sig .tc .vmem S1000x512 .bf16) (h5 : a5.IsWhole) (a6 : Memref sig .tc .vmem S1x8x512 .f32) (h6 : a6.IsWhole) (a7 : Memref sig .tc .vmem S1x8x512 .f32) (h7 : a7.IsWhole) (hc0 : ¬cond0_0 i) (hc1 : ¬cond0_1 i)
    (x0 : Vec F S2048x512 .f32) (x1 : Vec F S2048x1 .i32) (x2 x3 : Vec F S1000x512 .bf16) (xs0 : Vec F S1x8x512 .f32) :
    sout0_B_0 c i a2 h2 a3 h3 a4 h4 a5 h5 a6 h6 a7 h7 hc0 hc1 x0 x1 x2 x3 xs0 = step x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz]
  unfold step
  simp only [View.readAt_eq_ld, h2.read_unread, h3.read_unread, h4.read_unread, h5.read_unread, h7.read_unread,
    View.ld_unit_zero (S := S2048x512) (show (![0, 0] : Fin 2 → Nat) = fun _ => 0 from funext fun a => by fin_cases a <;> rfl),
    View.ld_unit_zero (S := S2048x1) (show (![0, 0] : Fin 2 → Nat) = fun _ => 0 from funext fun a => by fin_cases a <;> rfl),
    View.ld_unit_zero (S := S1000x512) (show (![0, 0] : Fin 2 → Nat) = fun _ => 0 from funext fun a => by fin_cases a <;> rfl),
    View.ld_unit_zero (S := S1x8x512) hz]

/-- The last point of a half leaves the accumulator at the update of what it found there … -/
theorem sout_C (c : Dev nD) (i : grid0.Coords) (a2 : Memref sig .tc .vmem S2048x512 .f32) (h2 : a2.IsWhole) (a3 : Memref sig .tc .vmem S2048x1 .i32) (h3 : a3.IsWhole) (a4 : Memref sig .tc .vmem S1000x512 .bf16) (h4 : a4.IsWhole) (a5 : Memref sig .tc .vmem S1000x512 .bf16) (h5 : a5.IsWhole) (a6 : Memref sig .tc .vmem S1x8x512 .f32) (h6 : a6.IsWhole) (a7 : Memref sig .tc .vmem S1x8x512 .f32) (h7 : a7.IsWhole) (hc0 : ¬cond0_0 i) (hc1 : cond0_1 i)
    (x0 : Vec F S2048x512 .f32) (x1 : Vec F S2048x1 .i32) (x2 x3 : Vec F S1000x512 .bf16) (xs0 : Vec F S1x8x512 .f32) :
    sout0_C_0 c i a2 h2 a3 h3 a4 h4 a5 h5 a6 h6 a7 h7 hc0 hc1 x0 x1 x2 x3 xs0 = step x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  unfold step
  simp only [View.readAt_eq_ld, h2.read_unread, h3.read_unread, h4.read_unread, h5.read_unread, h7.read_unread,
    View.readCov_unit_zero (S := S1x8x512) _ hz,
    View.ld_unit_zero (S := S2048x512) (show (![0, 0] : Fin 2 → Nat) = fun _ => 0 from funext fun a => by fin_cases a <;> rfl),
    View.ld_unit_zero (S := S2048x1) (show (![0, 0] : Fin 2 → Nat) = fun _ => 0 from funext fun a => by fin_cases a <;> rfl),
    View.ld_unit_zero (S := S1000x512) (show (![0, 0] : Fin 2 → Nat) = fun _ => 0 from funext fun a => by fin_cases a <;> rfl),
    View.ld_unit_zero (S := S1x8x512) hz]

/-- … and stores the same block into the output's staging buffer. -/
theorem out_C (c : Dev nD) (i : grid0.Coords) (a2 : Memref sig .tc .vmem S2048x512 .f32) (h2 : a2.IsWhole) (a3 : Memref sig .tc .vmem S2048x1 .i32) (h3 : a3.IsWhole) (a4 : Memref sig .tc .vmem S1000x512 .bf16) (h4 : a4.IsWhole) (a5 : Memref sig .tc .vmem S1000x512 .bf16) (h5 : a5.IsWhole) (a6 : Memref sig .tc .vmem S1x8x512 .f32) (h6 : a6.IsWhole) (a7 : Memref sig .tc .vmem S1x8x512 .f32) (h7 : a7.IsWhole) (hc0 : ¬cond0_0 i) (hc1 : cond0_1 i)
    (x0 : Vec F S2048x512 .f32) (x1 : Vec F S2048x1 .i32) (x2 x3 : Vec F S1000x512 .bf16) (xs0 : Vec F S1x8x512 .f32) :
    out0_C_4 c i a2 h2 a3 h3 a4 h4 a5 h5 a6 h6 a7 h7 hc0 hc1 x0 x1 x2 x3 xs0 = step x0 x1 x2 x3 xs0 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz]
  unfold step
  simp only [View.readAt_eq_ld, h2.read_unread, h3.read_unread, h4.read_unread, h5.read_unread, h7.read_unread,
    View.readCov_unit_zero (S := S1x8x512) _ hz,
    View.ld_unit_zero (S := S2048x512) (show (![0, 0] : Fin 2 → Nat) = fun _ => 0 from funext fun a => by fin_cases a <;> rfl),
    View.ld_unit_zero (S := S2048x1) (show (![0, 0] : Fin 2 → Nat) = fun _ => 0 from funext fun a => by fin_cases a <;> rfl),
    View.ld_unit_zero (S := S1000x512) (show (![0, 0] : Fin 2 → Nat) = fun _ => 0 from funext fun a => by fin_cases a <;> rfl),
    View.ld_unit_zero (S := S1x8x512) hz]

/-- The first point of a half stores zeros into the accumulator and leaves it at the update of those. -/
theorem sout_A (c : Dev nD) (i : grid0.Coords) (a2 : Memref sig .tc .vmem S2048x512 .f32) (h2 : a2.IsWhole) (a3 : Memref sig .tc .vmem S2048x1 .i32) (h3 : a3.IsWhole) (a4 : Memref sig .tc .vmem S1000x512 .bf16) (h4 : a4.IsWhole) (a5 : Memref sig .tc .vmem S1000x512 .bf16) (h5 : a5.IsWhole) (a6 : Memref sig .tc .vmem S1x8x512 .f32) (h6 : a6.IsWhole) (a7 : Memref sig .tc .vmem S1x8x512 .f32) (h7 : a7.IsWhole) (hc0 : cond0_0 i) (hc1 : ¬cond0_1 i)
    (x0 : Vec F S2048x512 .f32) (x1 : Vec F S2048x1 .i32) (x2 x3 : Vec F S1000x512 .bf16) :
    sout0_A_0 c i a2 h2 a3 h3 a4 h4 a5 h5 a6 h6 a7 h7 hc0 hc1 x0 x1 x2 x3 = step x0 x1 x2 x3 (k0_pay1 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1x8x512) hz]
  unfold step
  simp only [View.readAt_eq_ld, h2.read_unread, h3.read_unread, h4.read_unread, h5.read_unread, h7.read_unread,
    View.readCov_unit_zero (S := S1x8x512) _ hz,
    View.ld_unit_zero (S := S2048x512) (show (![0, 0] : Fin 2 → Nat) = fun _ => 0 from funext fun a => by fin_cases a <;> rfl),
    View.ld_unit_zero (S := S2048x1) (show (![0, 0] : Fin 2 → Nat) = fun _ => 0 from funext fun a => by fin_cases a <;> rfl),
    View.ld_unit_zero (S := S1000x512) (show (![0, 0] : Fin 2 → Nat) = fun _ => 0 from funext fun a => by fin_cases a <;> rfl),
    View.ld_unit_zero (S := S1x8x512) hz]

end Cert.KernelIdeal.Acc

end
-- ==== Proof.KAccum.lean ====
/-
  The accumulator across the grid, and the output array it ends in. The sixteen grid points are two halves of eight; the
  accumulator after point n is the update (step) of the accumulator after point n - 1, or of zeros when n is the first
  point of its half. The output array's block h is written once, at the last point 8 h + 7 of half h, with the accumulator's
  contents there; so the array at (h, r, d) is the running chain at point 8 h + 7 read at (0, r, d).
-/
import proofs.«409271_j34608846471397_2_alg».proof.Proof.KPieces
import Idealize.ShloMosaic.Lib.ValueIdx

noncomputable section

namespace Cert.KernelIdeal.Acc

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The four input blocks of grid point t, at their literal types. -/
abbrev b0 (c : Dev nD) (t : Fin cfg0.N) : Vec F S2048x512 .f32 := iblk m c 0 t
abbrev b1 (c : Dev nD) (t : Fin cfg0.N) : Vec F S2048x1 .i32 := iblk m c 1 t
abbrev b2 (c : Dev nD) (t : Fin cfg0.N) : Vec F S1000x512 .bf16 := iblk m c 2 t
abbrev b3 (c : Dev nD) (t : Fin cfg0.N) : Vec F S1000x512 .bf16 := iblk m c 3 t

/-- The accumulator after point n: the update of the one before, restarted from zeros at the first point of each half. -/
def chain (c : Dev nD) : (n : ℕ) → n < cfg0.N → Vec F S1x8x512 .f32
  | 0, h => step (b0 m c ⟨0, h⟩) (b1 m c ⟨0, h⟩) (b2 m c ⟨0, h⟩) (b3 m c ⟨0, h⟩) (k0_pay1 (F := F))
  | n + 1, h => step (b0 m c ⟨n + 1, h⟩) (b1 m c ⟨n + 1, h⟩) (b2 m c ⟨n + 1, h⟩) (b3 m c ⟨n + 1, h⟩)
      (if (n + 1) % 8 = 0 then (k0_pay1 (F := F)) else chain c n (Nat.lt_of_succ_lt h))

theorem chain_zero (c : Dev nD) (h : 0 < cfg0.N) :
    chain m c 0 h = step (b0 m c ⟨0, h⟩) (b1 m c ⟨0, h⟩) (b2 m c ⟨0, h⟩) (b3 m c ⟨0, h⟩) (k0_pay1 (F := F)) := rfl

theorem chain_succ (c : Dev nD) (n : ℕ) (h : n + 1 < cfg0.N) :
    chain m c (n + 1) h = step (b0 m c ⟨n + 1, h⟩) (b1 m c ⟨n + 1, h⟩) (b2 m c ⟨n + 1, h⟩) (b3 m c ⟨n + 1, h⟩)
      (if (n + 1) % 8 = 0 then (k0_pay1 (F := F)) else chain m c n (Nat.lt_of_succ_lt h)) := rfl

/-- The chain depends on the point's number only, and is read at an index. -/
theorem chain_congr (c : Dev nD) {n n' : ℕ} (h : n < cfg0.N) (h' : n' < cfg0.N) (e : n = n') (y y' : S1x8x512.Idx) (ey : y = y') :
    chain m c n h y = chain m c n' h' y' := by
  subst e; subst ey; rfl

/-! ## What the frame's per-point contents are, case by case -/

theorem snd_A (c : Dev nD) (t : Fin cfg0.N) (h0 : t.val % 8 = 0) (h1 : ¬t.val % 8 = 7) :
    (outsAt0 m c t.val t.isLt).2 = step (b0 m c t) (b1 m c t) (b2 m c t) (b3 m c t) (k0_pay1 (F := F)) := by
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

theorem snd_B (c : Dev nD) (t : Fin cfg0.N) (h0 : ¬t.val % 8 = 0) (h1 : ¬t.val % 8 = 7) :
    (outsAt0 m c t.val t.isLt).2 = step (b0 m c t) (b1 m c t) (b2 m c t) (b3 m c t) (outsAt0 m c (t.val - 1) (Nat.lt_of_le_of_lt (Nat.sub_le _ _) t.isLt)).2 := by
  rw [outsAt0_B m c t h0 h1]
  dsimp only
  exact sout_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

theorem snd_C (c : Dev nD) (t : Fin cfg0.N) (h0 : ¬t.val % 8 = 0) (h1 : t.val % 8 = 7) :
    (outsAt0 m c t.val t.isLt).2 = step (b0 m c t) (b1 m c t) (b2 m c t) (b3 m c t) (outsAt0 m c (t.val - 1) (Nat.lt_of_le_of_lt (Nat.sub_le _ _) t.isLt)).2 := by
  rw [outsAt0_C m c t h0 h1]
  dsimp only
  exact sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

theorem fst_C (c : Dev nD) (t : Fin cfg0.N) (h0 : ¬t.val % 8 = 0) (h1 : t.val % 8 = 7) :
    (outsAt0 m c t.val t.isLt).1 = step (b0 m c t) (b1 m c t) (b2 m c t) (b3 m c t) (outsAt0 m c (t.val - 1) (Nat.lt_of_le_of_lt (Nat.sub_le _ _) t.isLt)).2 := by
  rw [outsAt0_C m c t h0 h1]
  dsimp only
  exact out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- The accumulator the frame carries IS the chain, at every point — by induction on the point. -/
theorem scratch_eq (c : Dev nD) : ∀ (n : ℕ) (h : n < cfg0.N), (outsAt0 m c n h).2 = chain m c n h
  | 0, h => by
    rw [chain_zero]
    exact snd_A m c ⟨0, h⟩ (by rfl) (by show ¬(0 : ℕ) % 8 = 7; decide)
  | n + 1, h => by
    rw [chain_succ]
    by_cases h0 : (n + 1) % 8 = 0
    · rw [if_pos h0]
      exact snd_A m c ⟨n + 1, h⟩ h0 (by show ¬(n + 1) % 8 = 7; omega)
    · rw [if_neg h0, ← scratch_eq c n (Nat.lt_of_succ_lt h)]
      by_cases h1 : (n + 1) % 8 = 7
      · exact snd_C m c ⟨n + 1, h⟩ h0 h1
      · exact snd_B m c ⟨n + 1, h⟩ h0 h1

/-- At the last point of a half the output's staging buffer holds the chain too. -/
theorem out_eq (c : Dev nD) (t : Fin cfg0.N) (h7 : t.val % 8 = 7) : (outsAt0 m c t.val t.isLt).1 = chain m c t.val t.isLt := by
  have h0 : ¬t.val % 8 = 0 := by omega
  rw [fst_C m c t h0 h7, ← scratch_eq m c t.val t.isLt]
  exact (snd_C m c t h0 h7).symm

/-! ## The output array after the run -/

/-- The output array as one function of (half, packed row, column): the chain at the half's last point. -/
def Out (c : Dev nD) : Vec F S2x8x512 .f32 := fun j =>
  chain m c (8 * (j 0).val + 7) (by have h : (j 0).val < 2 := (j 0).isLt; have : cfg0.N = 16 := N_0; omega)
    (ix3 (0 : Fin 1) (⟨(j 1).val, (j 1).isLt⟩ : Fin 8) (⟨(j 2).val, (j 2).isLt⟩ : Fin 512))

/-- The output window's block index at point t is (t / 8, 0, 0): decided over the grid. -/
theorem idx_facts4 : ∀ t : Fin cfg0.N, win0_4.index t (0 : Fin 3) = t.val / 8 ∧ win0_4.index t (1 : Fin 3) = 0
    ∧ win0_4.index t (2 : Fin 3) = 0 :=
  (by decide +kernel : ∀ t : Fin grid0.N, _)

/-- What a writing point writes back is its block of Out. -/
theorem flushed_eq (c : Dev nD) (t : Fin cfg0.N) (hf : (cfg0.win 4).flush t = true) :
    (dats m 0 c).flushed 4 t = ((cfg0.win 4).blk t).view.read (Elt F) (Out m c) := by
  have h7 : t.val % 8 = 7 := (flush0_4 t).mp hf
  show (cfg0.win 4).cut (grid0.coords t) ((dats m 0 c).after 4 t) = _
  rw [after0_4, out_eq m c t h7]
  obtain ⟨e0, e1, e2⟩ := idx_facts4 t
  funext y
  show chain m c t.val t.isLt y = Out m c (((cfg0.win 4).blk t).view.emb y)
  have hy0 : (y 0).val < 1 := (y 0).isLt
  have hy1 : (y 1).val < 8 := (y 1).isLt
  have hy2 : (y 2).val < 512 := (y 2).isLt
  unfold Out
  refine chain_congr m c _ _ ?_ _ _ ?_
  · show t.val = 8 * (win0_4.index t (0 : Fin 3) * 1 + 1 * (y 0).val) + 7
    omega
  · funext a; apply Fin.ext
    match a with
    | ⟨0, _⟩ => show (y 0).val = 0; omega
    | ⟨1, _⟩ => show (y 1).val = win0_4.index t (1 : Fin 3) * 8 + 1 * (y 1).val; omega
    | ⟨2, _⟩ => show (y 2).val = win0_4.index t (2 : Fin 3) * 512 + 1 * (y 2).val; omega

/-- An index of the array is in point t's block iff each coordinate is in the block's range on its axis. -/
theorem mem_blk4 (t : Fin cfg0.N) (i : S2x8x512.Idx) :
    i ∈ ((cfg0.win 4).blk t).view.set ↔ ∀ a : Fin 3, win0_4.index t a * S1x8x512.size a ≤ (i a).val
      ∧ (i a).val < win0_4.index t a * S1x8x512.size a + S1x8x512.size a := by
  show i ∈ ((View.whole main_v5).slice (win0_4.rect t)).set ↔ _
  rw [View.set_slice_whole, Rect.mem_set_unit]
  exact Iff.rfl

/-- Every index (h, r, d) of the array is in the block the last point of half h writes. -/
theorem cover (i : S2x8x512.Idx) : ∃ t : Fin cfg0.N, (cfg0.win 4).flush t = true ∧ i ∈ ((cfg0.win 4).blk t).view.set := by
  have hi0 : (i 0).val < 2 := (i 0).isLt
  have hi1 : (i 1).val < 8 := (i 1).isLt
  have hi2 : (i 2).val < 512 := (i 2).isLt
  have hN : cfg0.N = 16 := N_0
  have hN' : grid0.N = 16 := N_0
  refine ⟨⟨8 * (i 0).val + 7, by omega⟩, (flush0_4 _).mpr (by show (8 * (i 0).val + 7) % 8 = 7; omega), ?_⟩
  rw [mem_blk4]
  obtain ⟨e0, e1, e2⟩ := idx_facts4 ⟨8 * (i 0).val + 7, by omega⟩
  have e0' : win0_4.index ⟨8 * (i 0).val + 7, by omega⟩ (0 : Fin 3) = (8 * (i 0).val + 7) / 8 := e0
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 8 ≤ (i 1).val ∧ (i 1).val < win0_4.index _ (1 : Fin 3) * 8 + 8; omega
  | ⟨2, _⟩ => show win0_4.index _ (2 : Fin 3) * 512 ≤ (i 2).val ∧ (i 2).val < win0_4.index _ (2 : Fin 3) * 512 + 512; omega

/-- So the output array ends holding Out. -/
theorem final (c : Dev nD) : (dats m 0 c).arrAt 4 cfg0.N = Out m c :=
  (dats m 0 c).arrAt_eq_of_cover 4 (Out m c) (flushed_eq m c) cover

end Cert.KernelIdeal.Acc

end
-- ==== Proof.Spec.lean ====
/-
  The two results of the loss as closed formulas of the three argument arrays, over the extended reals.

  For features f : [32768, 512], labels lab : [32768] (32-bit words) and centres cen : [1000, 512]:
    * dist i    = clip (sqrt (sum over d of (f[i,d] - cen[row(lab i), d])^2)) between the two clip literals, where
                  row reads a label as a signed integer and clamps it into [0, 999];
    * mean      = (sum over all 32768 rows of dist) / 32768;
    * cnt K     = how many rows carry the label word K, seg K d = the sum of f[i, d] over those rows;
    * centroid  = (cen[k, d] + seg K d) / max (cnt K) 1;
    * inter     = (2 / sqrt (sum over d of (centroid 998 - centroid 999)^2)) * (the literal 1/(1000*999) as printed).
  An indicator is written as a 0/1 factor (ind): in the extended reals 0 * x = 0 and 1 * x = x for every x.
-/
import Idealize.ShloMosaic.PureOps.Ideal
import Idealize.ShloMosaic.Lib.ValueIdx

noncomputable section

open scoped BigOperators

namespace Cert.Spec

open Idealize.ShloMosaic Idealize.ShloMosaic.ValueIdx

abbrev SF : Shape := ⟨2, ![32768, 512]⟩
abbrev SL : Shape := ⟨1, ![32768]⟩
abbrev SC : Shape := ⟨2, ![1000, 512]⟩
abbrev S0 : Shape := ⟨0, ![]⟩

/-- A label word read as a signed integer and clamped into the centre table's rows. -/
def row (b : BitVec 32) : Fin 1000 := ⟨min b.toInt.toNat 999, by omega⟩

/-- The 0/1 factor of "the word b is the word K". -/
def ind (K b : BitVec 32) : EReal := if b = K then 1 else 0

/-- The lower and upper clip literals, the row count, one, two and the final scale, as the printed words denote them. -/
def lo : EReal := Ideal.ofBits .f32 0x2B8CBCCC#32
def hi : EReal := Ideal.ofBits .f32 0x5368D4A5#32
def nrows : EReal := Ideal.ofBits .f32 0x47000000#32
def one : EReal := Ideal.ofBits .f32 0x3F800000#32
def two : EReal := Ideal.ofBits .f32 0x40000000#32
def scale : EReal := Ideal.ofBits .f32 0x35865A22#32

/-- The clipped distance of row i to the centre its label names. -/
def dist (f : FVec Ideal SF .f32) (lab : IVec SL 32) (cen : FVec Ideal SC .f32) (i : Fin 32768) : EReal :=
  min hi (max lo (Ideal.sqrt (∑ d : Fin 512,
    ((f (ix2 i d) : EReal) - cen (ix2 (row (lab (ix1 i))) d)) * ((f (ix2 i d) : EReal) - cen (ix2 (row (lab (ix1 i))) d)))))

/-- A sum of distances divided by the row count. -/
def meanOf (s : EReal) : EReal := Ideal.div s nrows

/-- The first result: the mean clipped distance. -/
def mean (f : FVec Ideal SF .f32) (lab : IVec SL 32) (cen : FVec Ideal SC .f32) : FVec Ideal S0 .f32 :=
  fun _ => meanOf (∑ i : Fin 32768, dist f lab cen i)

/-- How many rows carry the label word K. -/
def cnt (K : BitVec 32) (lab : IVec SL 32) : EReal := ∑ i : Fin 32768, ind K (lab (ix1 i))

/-- The sum of the feature rows that carry the label word K, at column d. -/
def seg (K : BitVec 32) (f : FVec Ideal SF .f32) (lab : IVec SL 32) (d : Fin 512) : EReal :=
  ∑ i : Fin 32768, ind K (lab (ix1 i)) * (f (ix2 i d) : EReal)

/-- The closing chain both programs share: from the two counts n0, n1 and the two row sums s0, s1 of classes 998 and 999,
    the updated centroids, their distance, and the scaled reciprocal. -/
def interOf (cen : FVec Ideal SC .f32) (n0 n1 : EReal) (s0 s1 : Fin 512 → EReal) : EReal :=
  Ideal.div two (Ideal.sqrt (∑ d : Fin 512,
    (Ideal.div ((cen (ix2 (998 : Fin 1000) d) : EReal) + s0 d) (max n0 one) - Ideal.div ((cen (ix2 (999 : Fin 1000) d) : EReal) + s1 d) (max n1 one))
    * (Ideal.div ((cen (ix2 (998 : Fin 1000) d) : EReal) + s0 d) (max n0 one) - Ideal.div ((cen (ix2 (999 : Fin 1000) d) : EReal) + s1 d) (max n1 one)))) * scale

/-- The second result. -/
def inter (f : FVec Ideal SF .f32) (lab : IVec SL 32) (cen : FVec Ideal SC .f32) : FVec Ideal S0 .f32 :=
  fun _ => interOf cen (cnt 998#32 lab) (cnt 999#32 lab) (seg 998#32 f lab) (seg 999#32 f lab)

end Cert.Spec

end
-- ==== Proof.KHost.lean ====
/-
  The host lines around the region, read at an index. Before the region: the labels reshaped to a column, the centre table
  split into a "hi" part (the table itself over the extended reals, a change of format being the identity) and a "lo" part
  (the table minus itself). So window 0's block at grid point t is rows 2048 t .. 2048 t + 2047 of the features, window 1's
  the same rows of the labels, windows 2 and 3 the two tables whole. After the region: the two results as functions of the
  region's output array A : [2, 8, 512] (half, packed row, column).
-/
import proofs.«409271_j34608846471397_2_alg».proof.Proof.Gen.KernelIdeal.Frame
import proofs.«409271_j34608846471397_2_alg».proof.Proof.Spec
import Idealize.ShloMosaic.PureOps.Ideal.Laws
import Idealize.ShloMosaic.Lib.Pipeline.Value
import Idealize.ShloMosaic.Lib.ValueLayout
import Idealize.ShloMosaic.Lib.StableHlo.Run

noncomputable section

open scoped BigOperators

namespace Cert.KernelIdeal.HostV

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The three argument arrays on core c, at their literal types. -/
abbrev feat (c : Dev nD) : FVec Ideal Cert.Spec.SF .f32 := m ((c.tc : Thread nD τ).loc main_arg0)
abbrev labs (c : Dev nD) : IVec Cert.Spec.SL 32 := m ((c.tc : Thread nD τ).loc main_arg1)
abbrev cent (c : Dev nD) : FVec Ideal Cert.Spec.SC .f32 := m ((c.tc : Thread nD τ).loc main_arg2)

/-- Window 0's block at point t is the features' rows 2048 t + r. -/
theorem blk0_apply (c : Dev nD) (t : Fin cfg0.N) (r : Fin 2048) (d : Fin 512) (h : 2048 * t.val + r.val < 32768) :
    ((iblk m c 0 t : Vec Ideal S2048x512 .f32) (ix2 r d) : EReal) = feat m c (ix2 ⟨2048 * t.val + r.val, h⟩ d) := by
  -- the block index of window 0 at point t is (t, 0), decided over the 16 points
  have hi : ∀ t : Fin cfg0.N, win0_0.index t 0 = t.val ∧ win0_0.index t 1 = 0 :=
    (by decide +kernel : ∀ t : Fin grid0.N, win0_0.index t 0 = t.val ∧ win0_0.index t 1 = 0)
  unfold iblk
  rw [View.read_apply]
  show V m c main_arg0 _ = m (c.tc.loc main_arg0) _
  rw [V_main_arg0]
  congr 1
  funext a
  apply Fin.ext
  -- a block's coordinate is index × size + the coordinate inside the block
  match a with
  | ⟨0, _⟩ => show win0_0.index t 0 * 2048 + 1 * r.val = 2048 * t.val + r.val; rw [(hi t).1]; omega
  | ⟨1, _⟩ => show win0_0.index t 1 * 512 + 1 * d.val = d.val; rw [(hi t).2]; omega

/-- The labels' column: the host's reshape of the label array to [32768, 1]. -/
theorem v0_eq (c : Dev nD) : (V m c main_v0 : S32768x1.Idx → BitVec 32)
    = shapeCast S32768x1 (labs m c : S32768.Idx → BitVec 32) shapeCasts_S32768_S32768x1 := by
  dsimp only [Gen.V, Gen.V0]
  simp only [Gen.hostOps0, List.flatten_cons, List.flatten_nil, List.append_nil, List.cons_append, List.nil_append]
  after_results
  rfl

/-- Window 1's block at point t is the labels' rows 2048 t + r (the reshape to a column read back). -/
theorem blk1_apply (c : Dev nD) (t : Fin cfg0.N) (r : Fin 2048) (h : 2048 * t.val + r.val < 32768) :
    (iblk m c 1 t : Vec Ideal S2048x1 .i32) (ix2 r (0 : Fin 1)) = labs m c (ix1 ⟨2048 * t.val + r.val, h⟩) := by
  have hi : ∀ t : Fin cfg0.N, win0_1.index t 0 = t.val ∧ win0_1.index t 1 = 0 :=
    (by decide +kernel : ∀ t : Fin grid0.N, win0_1.index t 0 = t.val ∧ win0_1.index t 1 = 0)
  unfold iblk
  rw [View.read_apply]
  show (V m c main_v0 : S32768x1.Idx → BitVec 32) _ = _
  rw [v0_eq]
  refine (shapeCast_apply _ _ _ (ix1 ⟨2048 * t.val + r.val, h⟩) ?_).trans rfl
  rw [Shape.rowMajor_val_two, Shape.rowMajor_val_one]
  show 2048 * t.val + r.val = (win0_1.index t 0 * 2048 + 1 * r.val) * 1 + (win0_1.index t 1 * 1 + 1 * 0)
  rw [(hi t).1, (hi t).2]
  omega

/-- The centre table narrowed to the short format. -/
theorem v1_eq (c : Dev nD) : (V m c main_v1 : FVec Ideal S1000x512 .bf16)
    = truncf .bf16 (cent m c) bitsLt_bf16_f32 := by
  dsimp only [Gen.V, Gen.V0]
  simp only [Gen.hostOps0, List.flatten_cons, List.flatten_nil, List.append_nil, List.cons_append, List.nil_append]
  after_results

/-- The centre table minus its narrowing widened back, narrowed again. -/
theorem v4_eq (c : Dev nD) : (V m c main_v4 : FVec Ideal S1000x512 .bf16)
    = truncf .bf16 (subf (cent m c) (extf .f32 (truncf .bf16 (cent m c) bitsLt_bf16_f32) bitsLt_bf16_f32)) bitsLt_bf16_f32 := by
  dsimp only [Gen.V, Gen.V0]
  simp only [Gen.hostOps0, List.flatten_cons, List.flatten_nil, List.append_nil, List.cons_append, List.nil_append]
  after_results

/-- Window 2's block is the centre table (its narrowing to the short format is the identity on extended reals). -/
theorem blk2_apply (c : Dev nD) (t : Fin cfg0.N) (k : Fin 1000) (d : Fin 512) :
    ((iblk m c 2 t : Vec Ideal S1000x512 .bf16) (ix2 k d) : EReal) = cent m c (ix2 k d) := by
  have hi : ∀ t : Fin cfg0.N, win0_2.index t 0 = 0 ∧ win0_2.index t 1 = 0 :=
    (by decide +kernel : ∀ t : Fin grid0.N, win0_2.index t 0 = 0 ∧ win0_2.index t 1 = 0)
  unfold iblk
  rw [View.read_apply]
  show (V m c main_v1 : FVec Ideal S1000x512 .bf16) _ = _
  rw [v1_eq, truncf_apply]
  congr 1
  funext a
  apply Fin.ext
  match a with
  | ⟨0, _⟩ => show win0_2.index t 0 * 1000 + 1 * k.val = k.val; rw [(hi t).1]; omega
  | ⟨1, _⟩ => show win0_2.index t 1 * 512 + 1 * d.val = d.val; rw [(hi t).2]; omega

/-- Window 3's block is the centre table minus itself. -/
theorem blk3_apply (c : Dev nD) (t : Fin cfg0.N) (k : Fin 1000) (d : Fin 512) :
    ((iblk m c 3 t : Vec Ideal S1000x512 .bf16) (ix2 k d) : EReal) = (cent m c (ix2 k d) : EReal) - cent m c (ix2 k d) := by
  have hi : ∀ t : Fin cfg0.N, win0_3.index t 0 = 0 ∧ win0_3.index t 1 = 0 :=
    (by decide +kernel : ∀ t : Fin grid0.N, win0_3.index t 0 = 0 ∧ win0_3.index t 1 = 0)
  have hj : ((cfg0.win 3).blk t).view.emb (ix2 k d) = ix2 k d := by
    funext a
    apply Fin.ext
    match a with
    | ⟨0, _⟩ => show win0_3.index t 0 * 1000 + 1 * k.val = k.val; rw [(hi t).1]; omega
    | ⟨1, _⟩ => show win0_3.index t 1 * 512 + 1 * d.val = d.val; rw [(hi t).2]; omega
  unfold iblk
  rw [View.read_apply]
  show (V m c main_v4 : FVec Ideal S1000x512 .bf16) _ = _
  rw [v4_eq, truncf_apply, subf_apply, extf_apply, truncf_apply]
  rw [hj]

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ : Fin n ≃ (⟨1, ![n]⟩ : Shape).Idx) f).symm

section PackedScalar
variable (A : FVec Ideal S2x8x512 .f32)

/-- A packed scalar added over the two halves: the slice [0:2, r:r+1, 0:1] as a [2] vector, summed from 0. -/
theorem pack_scalar (off : Fin 3 → Nat) (hs : S2x8x512.Slices off S2x1x1) (r : Fin 8)
    (h0 : off 0 = 0) (h1 : off 1 = r.val) (h2 : off 2 = 0) (j : S_.Idx) :
    Host.reduceAdd (F := Ideal) (shapeCast S2 (extractStridedSlice S2x1x1 off A hs) shapeCasts_S2x1x1_S2 : FVec Ideal S2 .f32)
      (constant S_ .f32 0x00000000#32) reducesTo_S2_S_d0 h_S_ j
    = ∑ h : Fin 2, (A (ix3 h r (0 : Fin 512)) : EReal) := by
  simp only [Host.reduceAdd, Ideal.hostReduceAdd_def]
  rw [Ideal.hostReduceAdd_total reducesTo_S2_S_d0 (fun b => b.elim0), constant_apply, Ideal.ofBits_zero_f32, zero_add]
  refine (sum_idx1 _).trans (Finset.sum_congr rfl fun hh _ => ?_)
  refine (shapeCast_apply _ _ (ix1 hh) (ix3 hh (0 : Fin 1) (0 : Fin 1)) ?_).trans ?_
  · rw [Shape.rowMajor_val_three, Shape.rowMajor_val_one]
    show (hh.val * 1 + 0) * 1 + 0 = hh.val
    omega
  · refine extractStridedSlice_apply off A hs _ (ix3 hh r (0 : Fin 512)) fun a => ?_
    match a with
    | ⟨0, _⟩ => show hh.val = off 0 + hh.val; omega
    | ⟨1, _⟩ => show r.val = off 1 + 0; omega
    | ⟨2, _⟩ => show 0 = off 2 + 0; omega
end PackedScalar

section PackedRow
variable (A : FVec Ideal S2x8x512 .f32) (C : FVec Ideal S1000x512 .f32)

/-- A packed row added over the two halves: the slice [0:2, r:r+1, 0:512] as a [2, 512] array, summed over the halves from 0. -/
theorem pack_row (off : Fin 3 → Nat) (hs : S2x8x512.Slices off S2x1x512) (r : Fin 8)
    (h0 : off 0 = 0) (h1 : off 1 = r.val) (h2 : off 2 = 0) (d : Fin 512) :
    Host.reduceAdd (F := Ideal) (shapeCast S2x512 (extractStridedSlice S2x1x512 off A hs) shapeCasts_S2x1x512_S2x512 : FVec Ideal S2x512 .f32)
      (constant S_ .f32 0x00000000#32) reducesTo_S2x512_S512_d0 h_S_ (ix1 d)
    = ∑ h : Fin 2, (A (ix3 h r d) : EReal) := by
  simp only [Host.reduceAdd, Ideal.hostReduceAdd_def]
  rw [Ideal.hostReduceAdd_single reducesTo_S2x512_S512_d0 (by decide), constant_apply, Ideal.ofBits_zero_f32, zero_add]
  refine Finset.sum_congr rfl fun hh _ => ?_
  refine (shapeCast_apply _ _ _ (ix3 hh (0 : Fin 1) d) ?_).trans ?_
  · rw [Shape.rowMajor_val_three, Shape.rowMajor_val_two]
    show (hh.val * 1 + 0) * 512 + d.val = hh.val * 512 + d.val
    omega
  · refine extractStridedSlice_apply off A hs _ (ix3 hh r d) fun a => ?_
    match a with
    | ⟨0, _⟩ => show hh.val = off 0 + hh.val; omega
    | ⟨1, _⟩ => show r.val = off 1 + 0; omega
    | ⟨2, _⟩ => show d.val = off 2 + d.val; omega

/-- One row of the centre table: the slice [k:k+1, 0:512] as a [512] vector. -/
theorem cen_row (off : Fin 2 → Nat) (hs : S1000x512.Slices off S1x512) (k : Fin 1000)
    (h0 : off 0 = k.val) (h1 : off 1 = 0) (d : Fin 512) :
    (shapeCast S512 (extractStridedSlice S1x512 off C hs) shapeCasts_S1x512_S512 : FVec Ideal S512 .f32) (ix1 d)
    = C (ix2 k d) := by
  refine (shapeCast_apply _ _ (ix1 d) (ix2 (0 : Fin 1) d) ?_).trans ?_
  · rw [Shape.rowMajor_val_two, Shape.rowMajor_val_one]
    show 0 * 512 + d.val = d.val
    omega
  · refine extractStridedSlice_apply off C hs _ (ix2 k d) fun a => ?_
    match a with
    | ⟨0, _⟩ => show k.val = off 0 + 0; omega
    | ⟨1, _⟩ => show d.val = off 1 + d.val; omega
end PackedRow

section Chain
variable (A : FVec Ideal S2x8x512 .f32) (C : FVec Ideal S1000x512 .f32)

/-- An updated centroid as the host lines compute it: (a centre row + a packed row summed over the halves) divided by
    max (a packed count summed over the halves) 1, the count broadcast along the row. -/
def centroidH (offc : Fin 2 → Nat) (hsc : S1000x512.Slices offc S1x512) (offs : Fin 3 → Nat) (hss : S2x8x512.Slices offs S2x1x512)
    (offn : Fin 3 → Nat) (hsn : S2x8x512.Slices offn S2x1x1) : FVec Ideal S512 .f32 :=
  Host.divf
    (addf (shapeCast S512 (extractStridedSlice S1x512 offc C hsc) shapeCasts_S1x512_S512)
      (Host.reduceAdd (shapeCast S2x512 (extractStridedSlice S2x1x512 offs A hss) shapeCasts_S2x1x512_S2x512)
        (constant S_ .f32 0x00000000#32) reducesTo_S2x512_S512_d0 h_S_))
    (broadcastInDim (s := S_) S512 ![] bcast_S_S512
      (maximumf (Host.reduceAdd (shapeCast S2 (extractStridedSlice S2x1x1 offn A hsn) shapeCasts_S2x1x1_S2)
          (constant S_ .f32 0x00000000#32) reducesTo_S2_S_d0 h_S_)
        (constant S_ .f32 0x3F800000#32)))

theorem centroidH_apply (offc : Fin 2 → Nat) (hsc : S1000x512.Slices offc S1x512) (offs : Fin 3 → Nat) (hss : S2x8x512.Slices offs S2x1x512)
    (offn : Fin 3 → Nat) (hsn : S2x8x512.Slices offn S2x1x1) (k : Fin 1000) (rs rn : Fin 8)
    (hc0 : offc 0 = k.val) (hc1 : offc 1 = 0) (hs0 : offs 0 = 0) (hs1 : offs 1 = rs.val) (hs2 : offs 2 = 0)
    (hn0 : offn 0 = 0) (hn1 : offn 1 = rn.val) (hn2 : offn 2 = 0) (d : Fin 512) :
    centroidH A C offc hsc offs hss offn hsn (ix1 d)
      = Ideal.div ((C (ix2 k d) : EReal) + ∑ h : Fin 2, (A (ix3 h rs d) : EReal))
          (max (∑ h : Fin 2, (A (ix3 h rn (0 : Fin 512)) : EReal)) Cert.Spec.one) := by
  unfold centroidH
  show Ideal.div ((addf _ _ : FVec Ideal S512 .f32) (ix1 d)) ((broadcastInDim (s := S_) S512 ![] bcast_S_S512 _ : FVec Ideal S512 .f32) (ix1 d)) = _
  rw [addf_apply, cen_row C offc hsc k hc0 hc1, pack_row A offs hss rs hs0 hs1 hs2,
    broadcastInDim_apply _ bcast_S_S512 _ (ix1 d) ix0 (fun a => a.elim0), maximumf_apply,
    pack_scalar A offn hsn rn hn0 hn1 hn2, constant_apply]
  rfl

/-- The closing chain as the host lines compute it. -/
def interH : FVec Ideal S_ .f32 :=
  mulf (Host.divf (constant S_ .f32 0x40000000#32)
    (Host.sqrt (Host.reduceAdd
      (mulf
        (subf (centroidH A C ![998, 0] slices_S1000x512_S1x512_998_0 ![0, 3, 0] slices_S2x8x512_S2x1x512_0_3_0 ![0, 1, 0] slices_S2x8x512_S2x1x1_0_1_0)
          (centroidH A C ![999, 0] slices_S1000x512_S1x512_999_0 ![0, 4, 0] slices_S2x8x512_S2x1x512_0_4_0 ![0, 2, 0] slices_S2x8x512_S2x1x1_0_2_0))
        (subf (centroidH A C ![998, 0] slices_S1000x512_S1x512_998_0 ![0, 3, 0] slices_S2x8x512_S2x1x512_0_3_0 ![0, 1, 0] slices_S2x8x512_S2x1x1_0_1_0)
          (centroidH A C ![999, 0] slices_S1000x512_S1x512_999_0 ![0, 4, 0] slices_S2x8x512_S2x1x512_0_4_0 ![0, 2, 0] slices_S2x8x512_S2x1x1_0_2_0)))
      (constant S_ .f32 0x00000000#32) reducesTo_S512_S_d0 h_S_)))
    (constant S_ .f32 0x35865A22#32)

theorem interH_apply (j : S_.Idx) :
    interH A C j = Cert.Spec.interOf C
      (∑ h : Fin 2, (A (ix3 h (1 : Fin 8) (0 : Fin 512)) : EReal))
      (∑ h : Fin 2, (A (ix3 h (2 : Fin 8) (0 : Fin 512)) : EReal))
      (fun d => ∑ h : Fin 2, (A (ix3 h (3 : Fin 8) d) : EReal))
      (fun d => ∑ h : Fin 2, (A (ix3 h (4 : Fin 8) d) : EReal)) := by
  unfold interH Cert.Spec.interOf Cert.Spec.two Cert.Spec.scale
  show Ideal.div (Ideal.ofBits .f32 0x40000000#32) (Ideal.sqrt (Host.reduceAdd (F := Ideal) _ _ reducesTo_S512_S_d0 h_S_ j))
    * Ideal.ofBits .f32 0x35865A22#32 = _
  simp only [Host.reduceAdd, Ideal.hostReduceAdd_def]
  rw [Ideal.hostReduceAdd_total reducesTo_S512_S_d0 (fun b => b.elim0), constant_apply, Ideal.ofBits_zero_f32, zero_add, sum_idx1]
  refine congrArg (fun s => Ideal.div _ (Ideal.sqrt s) * _) (Finset.sum_congr rfl fun d _ => ?_)
  rw [mulf_apply, subf_apply,
    centroidH_apply A C _ _ _ _ _ _ (998 : Fin 1000) (3 : Fin 8) (1 : Fin 8) rfl rfl rfl rfl rfl rfl rfl rfl d,
    centroidH_apply A C _ _ _ _ _ _ (999 : Fin 1000) (4 : Fin 8) (2 : Fin 8) rfl rfl rfl rfl rfl rfl rfl rfl d]
end Chain

set_option maxHeartbeats 1000000 in
/-- The second result's host lines, over any contents of the buffers they read. -/
theorem tail_v39 (W : Valuation τ sig (Elt Ideal)) :
    StableHlo.after (hostOps1 (F := Ideal)) W (Proc.devRef .tc main_v39)
      = interH (W (Proc.devRef .tc main_v5)) (W (Proc.devRef .tc main_arg2)) := by
  after_results_simp
  rfl

/-- The first result's host lines, over any contents of the buffers they read. -/
theorem tail_v21 (W : Valuation τ sig (Elt Ideal)) :
    StableHlo.after (hostOps1 (F := Ideal)) W (Proc.devRef .tc main_v21)
      = Host.divf (Host.reduceAdd (F := Ideal)
          (shapeCast S2 (extractStridedSlice S2x1x1 ![0, 0, 0] (W (Proc.devRef .tc main_v5) : FVec Ideal S2x8x512 .f32) slices_S2x8x512_S2x1x1_0_0_0)
              shapeCasts_S2x1x1_S2 : FVec Ideal S2 .f32)
          (constant S_ .f32 0x00000000#32) reducesTo_S2_S_d0 h_S_)
        (constant S_ .f32 0x47000000#32) := by
  after_results
  rfl

variable (dats : (p : Fin 1) → (c : Dev nD) → Dat τ (Elt Ideal) Unit ℕ (UR sig nD τ) ℕ (cfgs p) c)

/-- The region's output array after the run, at its literal type. -/
abbrev outArr (c : Dev nD) : Vec Ideal S2x8x512 .f32 := (dats 0 c).arrAt 4 cfg0.N

/-- The first result: the two halves' distance sums (packed row 0, column 0) added and divided by the row count. -/
theorem tail_mean (c : Dev nD) :
    Pipeline.afterTail₀ cfgs dats 0 (V0 m) [hostOps1] c main_v21
      = fun _ => Cert.Spec.meanOf (∑ h : Fin 2, (outArr dats c (ix3 h (0 : Fin 8) (0 : Fin 512)) : EReal)) := by
  unfold Pipeline.afterTail₀
  show StableHlo.after hostOps1 _ (Proc.devRef .tc main_v21) = _
  rw [tail_v21]
  -- the buffer the chain reads is the region's output array (window 4's) as the run leaves it
  have e : Pipeline.withArrays (cfgs 0).spec c (V0 m c) (fun w => (dats 0 c).arrAt w (cfgs 0).N) (Proc.devRef .tc main_v5)
      = outArr dats c :=
    Pipeline.withArrays_arr spec0 launch0.win.arr_inj c (V0 m c) (fun w => (dats 0 c).arrAt w (cfgs 0).N) 4
  rw [e]
  generalize outArr dats c = A
  funext j
  show Ideal.div _ _ = Ideal.div _ _
  rw [pack_scalar A _ _ (0 : Fin 8) rfl rfl rfl]
  rfl

/-- The second result: the closing chain applied to the two halves' counts (packed rows 1, 2, column 0) and masked row sums
    (packed rows 3, 4) added over the halves. -/
theorem tail_inter (c : Dev nD) :
    Pipeline.afterTail₀ cfgs dats 0 (V0 m) [hostOps1] c main_v39
      = fun _ => Cert.Spec.interOf (cent m c)
          (∑ h : Fin 2, (outArr dats c (ix3 h (1 : Fin 8) (0 : Fin 512)) : EReal))
          (∑ h : Fin 2, (outArr dats c (ix3 h (2 : Fin 8) (0 : Fin 512)) : EReal))
          (fun d => ∑ h : Fin 2, (outArr dats c (ix3 h (3 : Fin 8) d) : EReal))
          (fun d => ∑ h : Fin 2, (outArr dats c (ix3 h (4 : Fin 8) d) : EReal)) := by
  unfold Pipeline.afterTail₀
  show StableHlo.after hostOps1 _ (Proc.devRef .tc main_v39) = _
  rw [tail_v39]
  -- the chain reads the region's output array (window 4's) and the centre table, which no window stages and no host
  -- line writes
  have e : Pipeline.withArrays (cfgs 0).spec c (V0 m c) (fun w => (dats 0 c).arrAt w (cfgs 0).N) (Proc.devRef .tc main_v5)
      = outArr dats c :=
    Pipeline.withArrays_arr spec0 launch0.win.arr_inj c (V0 m c) (fun w => (dats 0 c).arrAt w (cfgs 0).N) 4
  have e2 : Pipeline.withArrays (cfgs 0).spec c (V0 m c) (fun w => (dats 0 c).arrAt w (cfgs 0).N) (Proc.devRef .tc main_arg2)
      = cent m c :=
    (Pipeline.withArrays_of_ne _ c (V0 m c) _ main_arg2 (by decide : ∀ w, Pipeline.arrRef spec0 w ≠ main_arg2)).trans
      (V_main_arg2 m c)
  rw [e, e2]
  funext j
  exact interH_apply _ _ j

end Cert.KernelIdeal.HostV

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.KPayload.lean ====
/-
  One grid point's arithmetic read at the entries the host tail uses. The body adds to the accumulator block acc : [1, 8, 512]
  a block whose row 0, column 0 is the tile's sum of clipped distances, whose rows 1 and 2, column 0 are the tile's counts of
  labels 998 and 999, and whose rows 3 and 4 are the tile's masked column sums of the features.
-/
import proofs.«409271_j34608846471397_2_alg».proof.Proof.Gen.KernelIdeal.Skeleton
import proofs.«409271_j34608846471397_2_alg».proof.Proof.Spec
import proofs.«409271_j34608846471397_2_alg».proof.Proof.LibDot
import Idealize.ShloMosaic.PureOps.Ideal.Laws
import Idealize.ShloMosaic.Lib.Pipeline.Value
import Idealize.ShloMosaic.Lib.ValueLayout

noncomputable section

open scoped BigOperators

namespace Cert.KernelIdeal.Tile

open Idealize.ShloMosaic Idealize.ShloMosaic.ValueIdx Cert.KernelIdeal Cert.KernelIdeal.Gen

/-! ## Words, casts, broadcasts and reductions read at an index -/

/-- The 0/1 factor: the comparison of two words, widened to a word and converted, is 1 where they agree and 0 elsewhere. -/
theorem sitofp_extui_eq (a b : BitVec 32) :
    (FloatOps.sitofp (F := Ideal) .f32 ((IntOp.cmpi .eq a b).setWidth 32) : EReal) = Cert.Spec.ind b a := by
  unfold Cert.Spec.ind
  by_cases h : a = b
  · subst h
    rw [if_pos rfl]
    have hw : (IntOp.cmpi .eq a a).setWidth 32 = 1#32 := by
      simp [IntOp.cmpi]
    show (((((IntOp.cmpi .eq a a).setWidth 32).toInt : ℝ)) : EReal) = 1
    rw [hw]
    norm_num
  · rw [if_neg h]
    have hb : (a == b) = false := beq_eq_false_iff_ne.mpr h
    have hw : (IntOp.cmpi .eq a b).setWidth 32 = 0#32 := by
      simp [IntOp.cmpi, hb]
    show (((((IntOp.cmpi .eq a b).setWidth 32).toInt : ℝ)) : EReal) = 0
    rw [hw]
    norm_num

/-- The one element of a [1, 1, 1] vector, extracted at its position. -/
theorem extractAt_111 {α : Type} (v : S1x1x1.Idx → α) (h : ∀ a, (![0, 0, 0] : Fin 3 → Nat) a < S1x1x1.size a) :
    extractAt ![0, 0, 0] v h = v (ix3 (0 : Fin 1) (0 : Fin 1) (0 : Fin 1)) := by
  unfold extractAt
  refine congrArg v (funext fun a => ?_)
  match a with
  | ⟨0, _⟩ => rfl
  | ⟨1, _⟩ => rfl
  | ⟨2, _⟩ => rfl

/-- An [a] array cast to the column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1] array cast to [1, 1, 1] reads its one element. -/
theorem shapeCast_1_111_apply {α : Type} (x : S1.Idx → α) (h : S1.ShapeCasts S1x1x1) (u v w : Fin 1) :
    shapeCast S1x1x1 x h (ix3 u v w) = x (ix1 (0 : Fin 1)) :=
  shapeCast_apply x h _ _ (by
    have hu : u.val = 0 := by omega
    have hv : v.val = 0 := by omega
    have hw : w.val = 0 := by omega
    rw [Shape.rowMajor_val_three, Shape.rowMajor_val_one]
    show 0 = (u.val * 1 + v.val) * 1 + w.val
    rw [hu, hv, hw])

/-- A column [a, 1] broadcast along its unit axis to [a, b] reads, at (i, j), the column at i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The sum over the columns of a [2048, 512] block, read at row r. -/
theorem rowsum_apply (v : FVec Ideal S2048x512 .f32) (h : S2048x512.Reduces [1] S2048) (hφ : FKind.Formats .f32)
    (hacc : (0x00000000#32 : BitVec 32) = FKind.add.neutral .f32 hφ) (r : Fin 2048) :
    multiReduction .add [1] S2048 v 0x00000000#32 h hφ hacc (ix1 r) = ∑ d : Fin 512, v (ix2 r d) := by
  refine (Ideal.multiReduction_add_single v _ h hφ hacc (ix1 r)).trans ?_
  refine Finset.sum_congr rfl fun d _ => congrArg v ?_
  funext a
  match a with
  | ⟨0, _⟩ => rfl
  | ⟨1, _⟩ => rfl

/-- The sum over the rows of a [2048, 512] block, read at column d. -/
theorem colsum_apply (v : FVec Ideal S2048x512 .f32) (h : S2048x512.Reduces [0] S512) (hφ : FKind.Formats .f32)
    (hacc : (0x00000000#32 : BitVec 32) = FKind.add.neutral .f32 hφ) (d : Fin 512) :
    multiReduction .add [0] S512 v 0x00000000#32 h hφ hacc (ix1 d) = ∑ r : Fin 2048, v (ix2 r d) := by
  refine (Ideal.multiReduction_add_single v _ h hφ hacc (ix1 d)).trans ?_
  refine Finset.sum_congr rfl fun r _ => congrArg v ?_
  funext a
  match a with
  | ⟨0, _⟩ => rfl
  | ⟨1, _⟩ => rfl

/-- The rows of a [1, 2048, 1] block are its indices. -/
def colEquiv : Fin 2048 ≃ S1x2048x1.Idx where
  toFun r := ix3 (0 : Fin 1) r (0 : Fin 1)
  invFun i := i 1
  left_inv _ := rfl
  right_inv i := by
    funext a
    match a with
    | ⟨0, _⟩ =>
      have h1 : (i 0).val < 1 := (i 0).isLt
      exact Fin.ext (by show 0 = (i 0).val; omega)
    | ⟨1, _⟩ => rfl
    | ⟨2, _⟩ =>
      have h1 : (i 2).val < 1 := (i 2).isLt
      exact Fin.ext (by show 0 = (i 2).val; omega)

/-- The total of a [2048, 1] column, taken through its [1, 2048, 1] view into a one-element vector. -/
theorem total_apply (v : FVec Ideal S2048x1 .f32) (h1 : S2048x1.ShapeCasts S1x2048x1) (h : S1x2048x1.Reduces [1, 2] S1)
    (hφ : FKind.Formats .f32) (hacc : (0x00000000#32 : BitVec 32) = FKind.add.neutral .f32 hφ) (j : S1.Idx) :
    multiReduction .add [1, 2] S1 (shapeCast S1x2048x1 v h1) 0x00000000#32 h hφ hacc j = ∑ r : Fin 2048, v (ix2 r (0 : Fin 1)) := by
  refine (Ideal.multiReduction_add_total _ _ h (fun b => by match b with | ⟨0, _⟩ => rfl) hφ hacc j).trans ?_
  refine (Equiv.sum_comp colEquiv _).symm.trans ?_
  exact Finset.sum_congr rfl fun r _ => shapeCast_ab_1ab_apply v h1 (0 : Fin 1) r (0 : Fin 1)

/-- The total read through the [1, 1, 1] view at its one position. -/
theorem total_extract (v : FVec Ideal S2048x1 .f32) (h1 : S2048x1.ShapeCasts S1x2048x1) (h : S1x2048x1.Reduces [1, 2] S1)
    (hφ : FKind.Formats .f32) (hacc : (0x00000000#32 : BitVec 32) = FKind.add.neutral .f32 hφ)
    (h3 : S1.ShapeCasts S1x1x1) (hp : ∀ a, (![0, 0, 0] : Fin 3 → Nat) a < S1x1x1.size a) :
    extractAt ![0, 0, 0] (shapeCast S1x1x1 (multiReduction .add [1, 2] S1 (shapeCast S1x2048x1 v h1) 0x00000000#32 h hφ hacc) h3) hp
      = ∑ r : Fin 2048, v (ix2 r (0 : Fin 1)) :=
  (extractAt_111 _ hp).trans ((shapeCast_1_111_apply _ h3 0 0 0).trans (total_apply v h1 h hφ hacc _))

/-- The lane index along the columns of a [1, 512] row, flattened to [512], compared with zero, widened and converted:
    the 0/1 factor of "column d is column 0". -/
theorem col0_apply (hi : S1x512.Iotas .tc 32 [1]) (hs : S1x512.ShapeCasts S512) (hn : 1 < 32) (d : Fin 512) :
    (sitofp .f32 (extui 32 (cmpi .eq (shapeCast S512 (iota .tc S1x512 32 [1] hi) hs) (broadcast S512 0#32)) hn) : FVec Ideal S512 .f32) (ix1 d)
      = Cert.Spec.ind 0#32 (BitVec.ofNat 32 d.val) := by
  show FloatOps.sitofp (F := Ideal) .f32 ((IntOp.cmpi .eq (shapeCast S512 (iota .tc S1x512 32 [1] hi) hs (ix1 d)) 0#32).setWidth 32) = _
  rw [shapeCast_1a_a_apply, iota_single_apply]
  exact sitofp_extui_eq _ _

/-- At column 0 that factor is 1. -/
theorem ind_col0 : Cert.Spec.ind 0#32 (BitVec.ofNat 32 (0 : Fin 512).val) = 1 := if_pos rfl

/-! ## The gathered row and the clipped distance -/

/-- The row the one-hot matrix products gather for row r of the tile, at column d: the "hi" table's and the "lo" table's
    one-hot sums added. -/
def gath (x1 : Vec Ideal S2048x1 .i32) (x2 x3 : Vec Ideal S1000x512 .bf16) (r : Fin 2048) (d : Fin 512) : EReal :=
  (∑ c : Fin 1000, Cert.Spec.ind (BitVec.ofNat 32 c.val) (x1 (ix2 r (0 : Fin 1))) * (x2 (ix2 c d) : EReal))
    + (∑ c : Fin 1000, Cert.Spec.ind (BitVec.ofNat 32 c.val) (x1 (ix2 r (0 : Fin 1))) * (x3 (ix2 c d) : EReal))

/-- The clipped distance of row r of the tile to its gathered row. -/
def tdist (x0 : Vec Ideal S2048x512 .f32) (x1 : Vec Ideal S2048x1 .i32) (x2 x3 : Vec Ideal S1000x512 .bf16) (r : Fin 2048) : EReal :=
  min Cert.Spec.hi (max Cert.Spec.lo (Ideal.sqrt (∑ d : Fin 512,
    ((x0 (ix2 r d) : EReal) - gath x1 x2 x3 r d) * ((x0 (ix2 r d) : EReal) - gath x1 x2 x3 r d))))

/-! ## The masks, the one-hot products and the tile's total of distances -/

/-- The labels pass through their same-shape cast unchanged. -/
theorem pay2_eq (x1 : Vec Ideal S2048x1 .i32) : k0_pay2 (F := Ideal) x1 = x1 := shapeCast_self _ _

/-- The mask of label 998 at row r. -/
theorem pay3_apply (x1 : Vec Ideal S2048x1 .i32) (r : Fin 2048) :
    (k0_pay3 (F := Ideal) x1 (ix2 r (0 : Fin 1)) : EReal) = Cert.Spec.ind 998#32 (x1 (ix2 r (0 : Fin 1))) := by
  show FloatOps.sitofp (F := Ideal) .f32 ((IntOp.cmpi .eq (k0_pay2 (F := Ideal) x1 (ix2 r (0 : Fin 1))) 998#32).setWidth 32) = _
  rw [pay2_eq]
  exact sitofp_extui_eq _ _

/-- The mask of label 999 at row r. -/
theorem pay4_apply (x1 : Vec Ideal S2048x1 .i32) (r : Fin 2048) :
    (k0_pay4 (F := Ideal) x1 (ix2 r (0 : Fin 1)) : EReal) = Cert.Spec.ind 999#32 (x1 (ix2 r (0 : Fin 1))) := by
  show FloatOps.sitofp (F := Ideal) .f32 ((IntOp.cmpi .eq (k0_pay2 (F := Ideal) x1 (ix2 r (0 : Fin 1))) 999#32).setWidth 32) = _
  rw [pay2_eq]
  exact sitofp_extui_eq _ _

/-- The one-hot matrix at (r, c): the 0/1 factor of "row r's label is the word c". -/
theorem onehot_apply (x1 : Vec Ideal S2048x1 .i32) (hi : S2048x1000.Iotas .tc 32 [1]) (hb : S2048x1.Broadcasts S2048x1000)
    (hn : 1 < 32) (hbits : FTy.bits .bf16 < FTy.bits .f32) (r : Fin 2048) (c : Fin 1000) :
    ((truncf .bf16 (sitofp .f32 (extui 32 (cmpi .eq (broadcastTo S2048x1000 (k0_pay2 (F := Ideal) x1) hb)
        (iota .tc S2048x1000 32 [1] hi)) hn) : FVec Ideal S2048x1000 .f32) hbits : FVec Ideal S2048x1000 .bf16) (ix2 r c) : EReal)
      = Cert.Spec.ind (BitVec.ofNat 32 c.val) (x1 (ix2 r (0 : Fin 1))) := by
  show FloatOps.sitofp (F := Ideal) .f32 ((IntOp.cmpi .eq (broadcastTo S2048x1000 (k0_pay2 (F := Ideal) x1) hb (ix2 r c))
    (iota .tc S2048x1000 32 [1] hi (ix2 r c))).setWidth 32) = _
  rw [broadcastTo_a1_ab_apply, iota_single_apply, pay2_eq]
  exact sitofp_extui_eq _ _

/-- The two one-hot products into zero accumulators, added, at (r, d): the gathered row. -/
theorem gath_apply (x1 : Vec Ideal S2048x1 .i32) (x2 x3 : Vec Ideal S1000x512 .bf16) (oh : FVec Ideal S2048x1000 .bf16)
    (hoh : ∀ (r : Fin 2048) (c : Fin 1000), (oh (ix2 r c) : EReal) = Cert.Spec.ind (BitVec.ofNat 32 c.val) (x1 (ix2 r (0 : Fin 1))))
    (h2 : S1000x512.ShapeCasts S1000x512) (r : Fin 2048) (d : Fin 512) :
    (addf (matmul dot_S2048x1000_S1000x512_S2048x512_1_0_0_1_n_n none oh (shapeCast S1000x512 x2 h2 : FVec Ideal S1000x512 .bf16) (constant S2048x512 .f32 0x00000000#32))
          (matmul dot_S2048x1000_S1000x512_S2048x512_1_0_0_1_n_n none oh (shapeCast S1000x512 x3 h2 : FVec Ideal S1000x512 .bf16) (constant S2048x512 .f32 0x00000000#32))
        : FVec Ideal S2048x512 .f32) (ix2 r d)
      = gath x1 x2 x3 r d := by
  have hm : ∀ x : Vec Ideal S1000x512 .bf16,
      (matmul dot_S2048x1000_S1000x512_S2048x512_1_0_0_1_n_n none oh (shapeCast S1000x512 x h2 : FVec Ideal S1000x512 .bf16) (constant S2048x512 .f32 0x00000000#32)
        : FVec Ideal S2048x512 .f32) (ix2 r d)
        = ∑ c : Fin 1000, Cert.Spec.ind (BitVec.ofNat 32 c.val) (x1 (ix2 r (0 : Fin 1))) * (x (ix2 c d) : EReal) := by
    intro x
    refine (Cert.LibDot.matmul_rows_apply dot_S2048x1000_S1000x512_S2048x512_1_0_0_1_n_n rfl rfl rfl rfl rfl rfl none oh
      (shapeCast S1000x512 x h2 : FVec Ideal S1000x512 .bf16) (constant S2048x512 .f32 0x00000000#32) r d).trans ?_
    rw [constant_apply, Ideal.ofBits_zero_f32, zero_add, shapeCast_self]
    exact Finset.sum_congr rfl fun c _ => congrArg (· * (x (ix2 c d) : EReal)) (hoh r c)
  exact congrArg₂ (· + ·) (hm x2) (hm x3)

/-- The tile's [1, 1, 1] total of clipped distances, at its one position. -/
theorem pay5_apply (x0 : Vec Ideal S2048x512 .f32) (x1 : Vec Ideal S2048x1 .i32) (x2 x3 : Vec Ideal S1000x512 .bf16) :
    (k0_pay5 (F := Ideal) x0 x1 x2 x3 (ix3 (0 : Fin 1) (0 : Fin 1) (0 : Fin 1)) : EReal) = ∑ r : Fin 2048, tdist x0 x1 x2 x3 r := by
  unfold k0_pay5
  refine (shapeCast_1_111_apply _ _ 0 0 0).trans ?_
  refine (total_apply _ _ _ _ _ _).trans ?_
  refine Finset.sum_congr rfl fun r _ => ?_
  unfold tdist
  refine (minimumf_apply _ _ _).trans ?_
  refine congrArg (min Cert.Spec.hi) ?_
  refine (maximumf_apply _ _ _).trans ?_
  refine congrArg (max Cert.Spec.lo) ?_
  refine congrArg Ideal.sqrt ?_
  refine (shapeCast_a_a1_apply _ _ r 0).trans ?_
  refine (rowsum_apply _ _ _ _ r).trans ?_
  refine Finset.sum_congr rfl fun d _ => ?_
  have e := gath_apply x1 x2 x3 _
    (onehot_apply x1 iota_S2048x1000_d1_w32 broadcasts_S2048x1_S2048x1000 natLt_1_32 bitsLt_bf16_f32)
    shapeCasts_S1000x512_S1000x512 r d
  exact congrArg₂ (· * ·) (congrArg ((x0 (ix2 r d) : EReal) - ·) e) (congrArg ((x0 (ix2 r d) : EReal) - ·) e)

/-! ## The stacked rows of the body's block -/

/-- Eight [1, 512] rows stacked along axis 0, read at (k, d): the k-th row at d. -/
theorem concat_row {α : Type} (xs : List ((s : Shape) × (s.Idx → α))) (h : Shape.Concatenates (xs.map (·.1)) S8x512 0)
    (hlen : xs.length = 8) (k : Nat) (hk8 : k < 8) (x₁ : S1x512.Idx → α) (hxk : xs[k]'(hlen ▸ hk8) = ⟨S1x512, x₁⟩)
    (hpre : (((xs.take k).map (·.1)).map fun s => if h : s.rank = S8x512.rank then s.size ((0 : Fin S8x512.rank).cast h.symm) else 0).sum = k)
    (d : Fin 512) :
    concatenate S8x512 0 xs h (ix2 (⟨k, hk8⟩ : Fin 8) d) = x₁ (ix2 (0 : Fin 1) d) :=
  concatenate_apply_piece (0 : Fin S8x512.rank) xs h (ix2 (⟨k, hk8⟩ : Fin 8) d) k (hlen ▸ hk8) S1x512 x₁ hxk rfl k hpre (ix2 (0 : Fin 1) d)
    (fun b hb => match b, hb with
      | ⟨0, _⟩, hb => absurd (Fin.ext rfl) hb
      | ⟨1, _⟩, _ => rfl)
    (Nat.add_zero k)

section Rows

variable (x0 : Vec Ideal S2048x512 .f32) (m0 m1 : FVec Ideal S2048x1 .f32) (s : FVec Ideal S1x1x1 .f32)
  (acc : Vec Ideal S1x8x512 .f32)

/-- Row 0, column 0 of the body's block: the accumulator plus the [1, 1, 1] total it is handed. -/
theorem pay6_row0 :
    (k0_pay6 (F := Ideal) x0 m0 m1 s acc (ix3 (0 : Fin 1) (0 : Fin 8) (0 : Fin 512)) : EReal)
      = acc (ix3 (0 : Fin 1) (0 : Fin 8) (0 : Fin 512)) + s (ix3 (0 : Fin 1) (0 : Fin 1) (0 : Fin 1)) := by
  unfold k0_pay6
  refine (congrFun (shapeCast_self _ _) _).trans ?_
  refine (addf_apply _ _ _).trans ?_
  refine congrArg (acc (ix3 (0 : Fin 1) (0 : Fin 8) (0 : Fin 512)) + ·) ?_
  refine (shapeCast_ab_1ab_apply _ _ 0 0 0).trans ?_
  refine (concat_row _ _ rfl 0 (by decide) _ rfl rfl 0).trans ?_
  refine (shapeCast_a_1a_apply _ _ 0 0).trans ?_
  refine (mulf_apply _ _ _).trans ?_
  refine (congrArg₂ (· * ·) ((col0_apply _ _ _ 0).trans ind_col0) (extractAt_111 s _)).trans ?_
  exact one_mul _

/-- Row 1, column 0: the accumulator plus the total of the first mask. -/
theorem pay6_row1 :
    (k0_pay6 (F := Ideal) x0 m0 m1 s acc (ix3 (0 : Fin 1) (1 : Fin 8) (0 : Fin 512)) : EReal)
      = acc (ix3 (0 : Fin 1) (1 : Fin 8) (0 : Fin 512)) + ∑ r : Fin 2048, (m0 (ix2 r (0 : Fin 1)) : EReal) := by
  unfold k0_pay6
  refine (congrFun (shapeCast_self _ _) _).trans ?_
  refine (addf_apply _ _ _).trans ?_
  refine congrArg (acc (ix3 (0 : Fin 1) (1 : Fin 8) (0 : Fin 512)) + ·) ?_
  refine (shapeCast_ab_1ab_apply _ _ 0 1 0).trans ?_
  refine (concat_row _ _ rfl 1 (by decide) _ rfl rfl 0).trans ?_
  refine (shapeCast_a_1a_apply _ _ 0 0).trans ?_
  refine (mulf_apply _ _ _).trans ?_
  refine (congrArg₂ (· * ·) ((col0_apply _ _ _ 0).trans ind_col0) (total_extract m0 _ _ _ _ _ _)).trans ?_
  exact one_mul _

/-- Row 2, column 0: the accumulator plus the total of the second mask. -/
theorem pay6_row2 :
    (k0_pay6 (F := Ideal) x0 m0 m1 s acc (ix3 (0 : Fin 1) (2 : Fin 8) (0 : Fin 512)) : EReal)
      = acc (ix3 (0 : Fin 1) (2 : Fin 8) (0 : Fin 512)) + ∑ r : Fin 2048, (m1 (ix2 r (0 : Fin 1)) : EReal) := by
  unfold k0_pay6
  refine (congrFun (shapeCast_self _ _) _).trans ?_
  refine (addf_apply _ _ _).trans ?_
  refine congrArg (acc (ix3 (0 : Fin 1) (2 : Fin 8) (0 : Fin 512)) + ·) ?_
  refine (shapeCast_ab_1ab_apply _ _ 0 2 0).trans ?_
  refine (concat_row _ _ rfl 2 (by decide) _ rfl rfl 0).trans ?_
  refine (shapeCast_a_1a_apply _ _ 0 0).trans ?_
  refine (mulf_apply _ _ _).trans ?_
  refine (congrArg₂ (· * ·) ((col0_apply _ _ _ 0).trans ind_col0) (total_extract m1 _ _ _ _ _ _)).trans ?_
  exact one_mul _

/-- Row 3: the accumulator plus the column sums of the features weighted by the first mask. -/
theorem pay6_row3 (d : Fin 512) :
    (k0_pay6 (F := Ideal) x0 m0 m1 s acc (ix3 (0 : Fin 1) (3 : Fin 8) d) : EReal)
      = acc (ix3 (0 : Fin 1) (3 : Fin 8) d) + ∑ r : Fin 2048, (m0 (ix2 r (0 : Fin 1)) : EReal) * (x0 (ix2 r d) : EReal) := by
  unfold k0_pay6
  refine (congrFun (shapeCast_self _ _) _).trans ?_
  refine (addf_apply _ _ _).trans ?_
  refine congrArg (acc (ix3 (0 : Fin 1) (3 : Fin 8) d) + ·) ?_
  refine (shapeCast_ab_1ab_apply _ _ 0 3 d).trans ?_
  refine (concat_row _ _ rfl 3 (by decide) _ rfl rfl d).trans ?_
  refine (shapeCast_a_1a_apply _ _ 0 d).trans ?_
  refine (colsum_apply _ _ _ _ d).trans ?_
  refine Finset.sum_congr rfl fun r _ => ?_
  refine (mulf_apply _ _ _).trans ?_
  exact congrArg (· * (x0 (ix2 r d) : EReal)) (broadcastTo_a1_ab_apply m0 _ r d)

/-- Row 4: the accumulator plus the column sums of the features weighted by the second mask. -/
theorem pay6_row4 (d : Fin 512) :
    (k0_pay6 (F := Ideal) x0 m0 m1 s acc (ix3 (0 : Fin 1) (4 : Fin 8) d) : EReal)
      = acc (ix3 (0 : Fin 1) (4 : Fin 8) d) + ∑ r : Fin 2048, (m1 (ix2 r (0 : Fin 1)) : EReal) * (x0 (ix2 r d) : EReal) := by
  unfold k0_pay6
  refine (congrFun (shapeCast_self _ _) _).trans ?_
  refine (addf_apply _ _ _).trans ?_
  refine congrArg (acc (ix3 (0 : Fin 1) (4 : Fin 8) d) + ·) ?_
  refine (shapeCast_ab_1ab_apply _ _ 0 4 d).trans ?_
  refine (concat_row _ _ rfl 4 (by decide) _ rfl rfl d).trans ?_
  refine (shapeCast_a_1a_apply _ _ 0 d).trans ?_
  refine (colsum_apply _ _ _ _ d).trans ?_
  refine Finset.sum_congr rfl fun r _ => ?_
  refine (mulf_apply _ _ _).trans ?_
  exact congrArg (· * (x0 (ix2 r d) : EReal)) (broadcastTo_a1_ab_apply m1 _ r d)

end Rows

/-- The block the first point of a half stores into the accumulator before adding: all zeros. -/
theorem pay1_apply (j : S1x8x512.Idx) : ((k0_pay1 (F := Ideal)) j : EReal) = 0 := by
  unfold k0_pay1
  refine (congrFun (shapeCast_self _ _) j).trans ?_
  show Ideal.ofBits .f32 0x00000000#32 = 0
  exact Ideal.ofBits_zero_f32

variable (x0 : Vec Ideal S2048x512 .f32) (x1 : Vec Ideal S2048x1 .i32) (x2 x3 : Vec Ideal S1000x512 .bf16)
  (acc : Vec Ideal S1x8x512 .f32)

/-- Row 0, column 0: the accumulator plus the tile's sum of clipped distances. -/
theorem pay_row0 :
    (k0_pay6 (F := Ideal) x0 (k0_pay3 x1) (k0_pay4 x1) (k0_pay5 x0 x1 x2 x3) acc (ix3 (0 : Fin 1) (0 : Fin 8) (0 : Fin 512)) : EReal)
      = acc (ix3 (0 : Fin 1) (0 : Fin 8) (0 : Fin 512)) + ∑ r : Fin 2048, tdist x0 x1 x2 x3 r :=
  (pay6_row0 x0 _ _ _ acc).trans
    (congrArg (acc (ix3 (0 : Fin 1) (0 : Fin 8) (0 : Fin 512)) + ·) (pay5_apply x0 x1 x2 x3))

/-- Row 1, column 0: the accumulator plus the tile's count of label 998. -/
theorem pay_row1 :
    (k0_pay6 (F := Ideal) x0 (k0_pay3 x1) (k0_pay4 x1) (k0_pay5 x0 x1 x2 x3) acc (ix3 (0 : Fin 1) (1 : Fin 8) (0 : Fin 512)) : EReal)
      = acc (ix3 (0 : Fin 1) (1 : Fin 8) (0 : Fin 512)) + ∑ r : Fin 2048, Cert.Spec.ind 998#32 (x1 (ix2 r (0 : Fin 1))) :=
  (pay6_row1 x0 _ _ _ acc).trans
    (congrArg (acc (ix3 (0 : Fin 1) (1 : Fin 8) (0 : Fin 512)) + ·) (Finset.sum_congr rfl fun r _ => pay3_apply x1 r))

/-- Row 2, column 0: the accumulator plus the tile's count of label 999. -/
theorem pay_row2 :
    (k0_pay6 (F := Ideal) x0 (k0_pay3 x1) (k0_pay4 x1) (k0_pay5 x0 x1 x2 x3) acc (ix3 (0 : Fin 1) (2 : Fin 8) (0 : Fin 512)) : EReal)
      = acc (ix3 (0 : Fin 1) (2 : Fin 8) (0 : Fin 512)) + ∑ r : Fin 2048, Cert.Spec.ind 999#32 (x1 (ix2 r (0 : Fin 1))) :=
  (pay6_row2 x0 _ _ _ acc).trans
    (congrArg (acc (ix3 (0 : Fin 1) (2 : Fin 8) (0 : Fin 512)) + ·) (Finset.sum_congr rfl fun r _ => pay4_apply x1 r))

/-- Row 3: the accumulator plus the tile's sum of the feature rows labelled 998, column by column. -/
theorem pay_row3 (d : Fin 512) :
    (k0_pay6 (F := Ideal) x0 (k0_pay3 x1) (k0_pay4 x1) (k0_pay5 x0 x1 x2 x3) acc (ix3 (0 : Fin 1) (3 : Fin 8) d) : EReal)
      = acc (ix3 (0 : Fin 1) (3 : Fin 8) d) + ∑ r : Fin 2048, Cert.Spec.ind 998#32 (x1 (ix2 r (0 : Fin 1))) * (x0 (ix2 r d) : EReal) :=
  (pay6_row3 x0 _ _ _ acc d).trans
    (congrArg (acc (ix3 (0 : Fin 1) (3 : Fin 8) d) + ·)
      (Finset.sum_congr rfl fun r _ => congrArg (· * (x0 (ix2 r d) : EReal)) (pay3_apply x1 r)))

/-- Row 4: the accumulator plus the tile's sum of the feature rows labelled 999, column by column. -/
theorem pay_row4 (d : Fin 512) :
    (k0_pay6 (F := Ideal) x0 (k0_pay3 x1) (k0_pay4 x1) (k0_pay5 x0 x1 x2 x3) acc (ix3 (0 : Fin 1) (4 : Fin 8) d) : EReal)
      = acc (ix3 (0 : Fin 1) (4 : Fin 8) d) + ∑ r : Fin 2048, Cert.Spec.ind 999#32 (x1 (ix2 r (0 : Fin 1))) * (x0 (ix2 r d) : EReal) :=
  (pay6_row4 x0 _ _ _ acc d).trans
    (congrArg (acc (ix3 (0 : Fin 1) (4 : Fin 8) d) + ·)
      (Finset.sum_congr rfl fun r _ => congrArg (· * (x0 (ix2 r d) : EReal)) (pay4_apply x1 r)))

end Cert.KernelIdeal.Tile

end
-- ==== Proof.Algebra.lean ====
/-
  Three facts about sums over the extended reals that the kernel's tiling and its one-hot matrix product lean on.
-/
import proofs.«409271_j34608846471397_2_alg».proof.Proof.Spec

noncomputable section

open scoped BigOperators

namespace Cert.Algebra

open Idealize.ShloMosaic Idealize.ShloMosaic.ValueIdx

/-- The position b * p + q of entry q of block p lies below a * b when there are a blocks of b entries. -/
theorem blk_lt {a b : ℕ} (p : Fin a) (q : Fin b) : b * p.val + q.val < a * b := by
  have hp : p.val + 1 ≤ a := p.isLt
  calc b * p.val + q.val < b * p.val + b := Nat.add_lt_add_left q.isLt _
    _ = (p.val + 1) * b := by ring
    _ ≤ a * b := Nat.mul_le_mul_right _ hp

/-- A sum over a * b positions is the double sum over (block, entry in block): the pairs (p, q) and the positions
    b * p + q correspond one to one, and a sum over pairs is an iterated sum. -/
theorem sum_blocks {M : Type*} [AddCommMonoid M] (a b : ℕ) (g : Fin (a * b) → M) :
    ∑ i : Fin (a * b), g i = ∑ p : Fin a, ∑ q : Fin b, g ⟨b * p.val + q.val, blk_lt p q⟩ := by
  rw [← (finProdFinEquiv (m := a) (n := b)).sum_comp g, Fintype.sum_prod_type]
  refine Finset.sum_congr rfl fun p _ => Finset.sum_congr rfl fun q _ => ?_
  refine congrArg g (Fin.ext ?_)
  show q.val + b * p.val = b * p.val + q.val
  exact Nat.add_comm _ _

/-- A one-hot row times a table column picks the table's entry at the label's row: for a label word in [0, 1000) exactly one
    of the thousand 0/1 factors is 1. -/
theorem onehot_sum (b : BitVec 32) (hb : 0 ≤ b.toInt ∧ b.toInt < 1000) (g : Fin 1000 → EReal) :
    ∑ c : Fin 1000, Cert.Spec.ind (BitVec.ofNat 32 c.val) b * g c = g (Cert.Spec.row b) := by
  have hlt : b.toNat < 2 ^ 32 := b.isLt
  -- a word whose signed reading is nonnegative reads the same signed and unsigned
  have h1 : b.toInt = (b.toNat : ℤ) := by
    have h0 := hb.1
    rw [BitVec.toInt_eq_toNat_cond] at h0 ⊢
    split_ifs at h0 ⊢ with hc
    · rfl
    · exfalso
      push_cast at h0
      omega
  have h2 : b.toNat < 1000 := by
    have := hb.2
    rw [h1] at this
    exact_mod_cast this
  -- so the clamp into [0, 999] leaves the word's value as it is
  have hrow : (Cert.Spec.row b).val = b.toNat := by
    simp only [Cert.Spec.row, h1, Int.toNat_natCast]
    omega
  rw [Finset.sum_eq_single (Cert.Spec.row b)]
  · -- at the label's own row the factor is 1
    have hK : b = BitVec.ofNat 32 (Cert.Spec.row b).val := by
      rw [hrow]
      exact BitVec.eq_of_toNat_eq (by rw [BitVec.toNat_ofNat]; exact (Nat.mod_eq_of_lt hlt).symm)
    rw [Cert.Spec.ind, if_pos hK, one_mul]
  · -- at every other row the factor is 0: equal words have equal values
    intro c _ hc
    have hne : ¬ b = BitVec.ofNat 32 c.val := by
      intro h
      apply hc
      apply Fin.ext
      rw [hrow, h, BitVec.toNat_ofNat]
      exact (Nat.mod_eq_of_lt (by have := c.isLt; omega)).symm
    rw [Cert.Spec.ind, if_neg hne, zero_mul]
  · intro h
    exact absurd (Finset.mem_univ _) h

/-- A finite extended real minus itself is zero. -/
theorem sub_self_of_finite (x : EReal) (h : ∃ r : ℝ, x = (r : EReal)) : x - x = 0 := by
  obtain ⟨r, rfl⟩ := h
  rw [← EReal.coe_sub, sub_self, EReal.coe_zero]

/-- The 32768 rows are 2 halves of 8 tiles of 2048 rows: a sum over the rows is the triple sum over (half, tile, row in tile). -/
theorem sum_rows (g : Fin 32768 → EReal) :
    ∑ i : Fin 32768, g i
      = ∑ h : Fin 2, ∑ k : Fin 8, ∑ r : Fin 2048, g ⟨2048 * (8 * h.val + k.val) + r.val, by omega⟩ := by
  -- 32768 = 16 * 2048: first the sixteen tiles of 2048 rows
  have h1 : ∑ i : Fin 32768, g i
      = ∑ p : Fin 16, ∑ r : Fin 2048, g ⟨2048 * p.val + r.val, by omega⟩ :=
    sum_blocks 16 2048 g
  -- 16 = 2 * 8: then the sixteen tiles as two halves of eight
  have h2 : ∀ F : Fin 16 → EReal,
      ∑ p : Fin 16, F p = ∑ h : Fin 2, ∑ k : Fin 8, F ⟨8 * h.val + k.val, by omega⟩ :=
    fun F => sum_blocks 2 8 F
  rw [h1, h2]

end Cert.Algebra

end
-- ==== Proof.KValue.lean ====
/-
  The kernel program's two results are the closed formulas of Spec.

  Each of the five packed quantities is a sum over the rows of a tile, added tile by tile into the accumulator of its half
  and restarted at the half's first tile; the host tail adds the two halves. Addition of extended reals being commutative
  and associative, each quantity is the sum over all 32768 rows. A tile's clipped distance is the specification's: the
  one-hot matrix product against the table picks the table's row at the label (the labels lie in [0, 1000)), and the
  product against the residual table, which is the table minus itself and so zero where the table is finite, adds nothing.
-/
import proofs.«409271_j34608846471397_2_alg».proof.Proof.KAccum
import proofs.«409271_j34608846471397_2_alg».proof.Proof.KHost
import proofs.«409271_j34608846471397_2_alg».proof.Proof.KPayload
import proofs.«409271_j34608846471397_2_alg».proof.Proof.Algebra

noncomputable section

open scoped BigOperators

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Acc Cert.KernelIdeal.HostV

variable (m : (ℓ : Loc nD τ sig) → Buf (Elt Ideal) ℓ)

/-! ## A packed entry of the accumulator is a running sum -/

/-- If one point's update adds δ (the point's number) to the entry J, the entry after point n holds the sum of δ over the
    points of n's half up to n. -/
theorem chain_at (c : Dev nD) (J : S1x8x512.Idx) (δ : ℕ → EReal)
    (hz : ((k0_pay1 (F := Ideal)) J : EReal) = 0)
    (hstep : ∀ (t : Fin cfg0.N) (acc : Vec Ideal S1x8x512 .f32),
      (step (b0 m c t) (b1 m c t) (b2 m c t) (b3 m c t) acc J : EReal) = acc J + δ t.val) :
    ∀ (n : ℕ) (h : n < cfg0.N), (chain m c n h J : EReal) = ∑ k ∈ Finset.range (n % 8 + 1), δ (n - n % 8 + k)
  | 0, h => by
    rw [chain_zero, hstep ⟨0, h⟩, hz, zero_add]
    simp
  | n + 1, h => by
    rw [chain_succ, hstep ⟨n + 1, h⟩]
    by_cases h0 : (n + 1) % 8 = 0
    · rw [if_pos h0, hz, zero_add, h0]
      simp
    · rw [if_neg h0, chain_at c J δ hz hstep n (Nat.lt_of_succ_lt h)]
      have e1 : (n + 1) % 8 = n % 8 + 1 := by omega
      have e2 : n + 1 - (n + 1) % 8 = n - n % 8 := by omega
      rw [e2, e1, Finset.sum_range_succ _ (n % 8 + 1)]
      refine congrArg (_ + ·) ?_
      show δ (n + 1) = δ (n - n % 8 + (n % 8 + 1))
      congr 1
      omega

/-- A quantity g of the rows, summed tile by tile into packed row R, column d: the two halves' entries of the output
    array add up to the sum of g over all rows. -/
theorem out_sum (c : Dev nD) (R : Fin 8) (d : Fin 512) (g : ℕ → EReal)
    (hstep : ∀ (t : Fin cfg0.N) (acc : Vec Ideal S1x8x512 .f32),
      (step (b0 m c t) (b1 m c t) (b2 m c t) (b3 m c t) acc (ix3 (0 : Fin 1) R d) : EReal)
        = acc (ix3 (0 : Fin 1) R d) + ∑ r : Fin 2048, g (2048 * t.val + r.val)) :
    ∑ h : Fin 2, (Out m c (ix3 h R d) : EReal) = ∑ i : Fin 32768, g i.val := by
  rw [Cert.Algebra.sum_rows (fun i => g i.val)]
  refine Finset.sum_congr rfl fun h _ => ?_
  have hN : cfg0.N = 16 := N_0
  have hh : h.val < 2 := h.isLt
  have e : (Out m c (ix3 h R d) : EReal) = chain m c (8 * h.val + 7) (by omega) (ix3 (0 : Fin 1) R d) := rfl
  rw [e, chain_at m c (ix3 (0 : Fin 1) R d) (fun n => ∑ r : Fin 2048, g (2048 * n + r.val)) (Cert.KernelIdeal.Tile.pay1_apply _) hstep]
  have e1 : (8 * h.val + 7) % 8 = 7 := by omega
  have e2 : 8 * h.val + 7 - (8 * h.val + 7) % 8 = 8 * h.val := by omega
  rw [e2, e1, Finset.sum_range]

/-! ## The hypotheses on the arguments -/

variable (hlab : ∀ c : Dev nD, ∀ i : Fin 32768, 0 ≤ ((labs m c) (ix1 i)).toInt ∧ ((labs m c) (ix1 i)).toInt < 1000)
variable (hfin : ∀ c : Dev nD, ∀ j : Cert.Spec.SC.Idx, ∃ r : ℝ, (cent m c j : EReal) = (r : EReal))

/-- A row's quantity, as a function of the row's number (zero past the last row). -/
def ofRow (q : Fin 32768 → EReal) : ℕ → EReal := fun i => if h : i < 32768 then q ⟨i, h⟩ else 0

theorem sum_ofRow (q : Fin 32768 → EReal) : ∑ i : Fin 32768, ofRow q i.val = ∑ i : Fin 32768, q i :=
  Finset.sum_congr rfl fun i _ => by unfold ofRow; rw [dif_pos i.isLt]

theorem row_lt (t : Fin cfg0.N) (r : Fin 2048) : 2048 * t.val + r.val < 32768 := by
  have hN : cfg0.N = 16 := N_0
  have ht := t.isLt
  have hr := r.isLt
  omega

/-- The point's four blocks, read at an index, are entries of the argument arrays. -/
theorem b0_apply (c : Dev nD) (t : Fin cfg0.N) (r : Fin 2048) (d : Fin 512) :
    (b0 m c t (ix2 r d) : EReal) = feat m c (ix2 ⟨2048 * t.val + r.val, row_lt t r⟩ d) := blk0_apply m c t r d (row_lt t r)
theorem b1_apply (c : Dev nD) (t : Fin cfg0.N) (r : Fin 2048) :
    b1 m c t (ix2 r (0 : Fin 1)) = labs m c (ix1 ⟨2048 * t.val + r.val, row_lt t r⟩) := blk1_apply m c t r (row_lt t r)
theorem b2_apply (c : Dev nD) (t : Fin cfg0.N) (k : Fin 1000) (d : Fin 512) :
    (b2 m c t (ix2 k d) : EReal) = cent m c (ix2 k d) := blk2_apply m c t k d
theorem b3_apply (c : Dev nD) (t : Fin cfg0.N) (k : Fin 1000) (d : Fin 512) :
    (b3 m c t (ix2 k d) : EReal) = (cent m c (ix2 k d) : EReal) - cent m c (ix2 k d) := blk3_apply m c t k d

include hlab hfin in
/-- The row the two one-hot products gather is the table's row at the label. -/
theorem gath_eq (c : Dev nD) (t : Fin cfg0.N) (r : Fin 2048) (d : Fin 512) :
    Cert.KernelIdeal.Tile.gath (b1 m c t) (b2 m c t) (b3 m c t) r d
      = cent m c (ix2 (Cert.Spec.row (labs m c (ix1 ⟨2048 * t.val + r.val, row_lt t r⟩))) d) := by
  unfold Cert.KernelIdeal.Tile.gath
  rw [b1_apply m c t r]
  simp only [b2_apply, b3_apply]
  have hres : ∑ k : Fin 1000, Cert.Spec.ind (BitVec.ofNat 32 k.val) (labs m c (ix1 ⟨2048 * t.val + r.val, row_lt t r⟩))
      * ((cent m c (ix2 k d) : EReal) - cent m c (ix2 k d)) = 0 :=
    Finset.sum_eq_zero fun k _ => by rw [Cert.Algebra.sub_self_of_finite _ (hfin c _), mul_zero]
  rw [hres, add_zero]
  exact Cert.Algebra.onehot_sum _ (hlab c _) (fun k => (cent m c (ix2 k d) : EReal))

include hlab hfin in
/-- A tile row's clipped distance is the specification's distance of that row. -/
theorem tdist_eq (c : Dev nD) (t : Fin cfg0.N) (r : Fin 2048) :
    Cert.KernelIdeal.Tile.tdist (b0 m c t) (b1 m c t) (b2 m c t) (b3 m c t) r
      = ofRow (Cert.Spec.dist (feat m c) (labs m c) (cent m c)) (2048 * t.val + r.val) := by
  unfold ofRow
  rw [dif_pos (row_lt t r)]
  unfold Cert.KernelIdeal.Tile.tdist Cert.Spec.dist
  simp only [gath_eq m hlab hfin c t r, b0_apply m c t r]

include hlab hfin in
/-- The two halves' distance sums add up to the sum of all rows' distances. -/
theorem sum_dist (c : Dev nD) :
    ∑ h : Fin 2, (Out m c (ix3 h (0 : Fin 8) (0 : Fin 512)) : EReal)
      = ∑ i : Fin 32768, Cert.Spec.dist (feat m c) (labs m c) (cent m c) i := by
  rw [← sum_ofRow]
  refine out_sum m c 0 0 _ fun t acc => ?_
  unfold step
  rw [Cert.KernelIdeal.Tile.pay_row0]
  exact congrArg (_ + ·) (Finset.sum_congr rfl fun r _ => tdist_eq m hlab hfin c t r)

/-- The two halves' counts of a class add up to the class's count (packed row 1 for class 998). -/
theorem sum_cnt0 (c : Dev nD) :
    ∑ h : Fin 2, (Out m c (ix3 h (1 : Fin 8) (0 : Fin 512)) : EReal) = Cert.Spec.cnt 998#32 (labs m c) := by
  unfold Cert.Spec.cnt
  rw [← sum_ofRow]
  refine out_sum m c 1 0 _ fun t acc => ?_
  unfold step
  rw [Cert.KernelIdeal.Tile.pay_row1]
  refine congrArg (_ + ·) (Finset.sum_congr rfl fun r _ => ?_)
  unfold ofRow
  rw [dif_pos (row_lt t r), b1_apply m c t r]

/-- Packed row 2 for class 999. -/
theorem sum_cnt1 (c : Dev nD) :
    ∑ h : Fin 2, (Out m c (ix3 h (2 : Fin 8) (0 : Fin 512)) : EReal) = Cert.Spec.cnt 999#32 (labs m c) := by
  unfold Cert.Spec.cnt
  rw [← sum_ofRow]
  refine out_sum m c 2 0 _ fun t acc => ?_
  unfold step
  rw [Cert.KernelIdeal.Tile.pay_row2]
  refine congrArg (_ + ·) (Finset.sum_congr rfl fun r _ => ?_)
  unfold ofRow
  rw [dif_pos (row_lt t r), b1_apply m c t r]

/-- The two halves' masked column sums add up to the class's column sum (packed row 3 for class 998). -/
theorem sum_seg0 (c : Dev nD) (d : Fin 512) :
    ∑ h : Fin 2, (Out m c (ix3 h (3 : Fin 8) d) : EReal) = Cert.Spec.seg 998#32 (feat m c) (labs m c) d := by
  unfold Cert.Spec.seg
  rw [← sum_ofRow]
  refine out_sum m c 3 d _ fun t acc => ?_
  unfold step
  rw [Cert.KernelIdeal.Tile.pay_row3]
  refine congrArg (_ + ·) (Finset.sum_congr rfl fun r _ => ?_)
  unfold ofRow
  rw [dif_pos (row_lt t r), b1_apply m c t r, b0_apply m c t r d]

/-- Packed row 4 for class 999. -/
theorem sum_seg1 (c : Dev nD) (d : Fin 512) :
    ∑ h : Fin 2, (Out m c (ix3 h (4 : Fin 8) d) : EReal) = Cert.Spec.seg 999#32 (feat m c) (labs m c) d := by
  unfold Cert.Spec.seg
  rw [← sum_ofRow]
  refine out_sum m c 4 d _ fun t acc => ?_
  unfold step
  rw [Cert.KernelIdeal.Tile.pay_row4]
  refine congrArg (_ + ·) (Finset.sum_congr rfl fun r _ => ?_)
  unfold ofRow
  rw [dif_pos (row_lt t r), b1_apply m c t r, b0_apply m c t r d]

/-! ## The two results -/

include hlab hfin in
theorem res_mean (c : Dev nD) :
    Pipeline.afterTail₀ cfgs (dats m) 0 (V0 m) [hostOps1] c main_v21 = Cert.Spec.mean (feat m c) (labs m c) (cent m c) := by
  rw [tail_mean m (dats m) c]
  unfold Cert.Spec.mean
  funext _
  show Cert.Spec.meanOf (∑ h : Fin 2, ((dats m 0 c).arrAt 4 cfg0.N (ix3 h (0 : Fin 8) (0 : Fin 512)) : EReal)) = _
  rw [final m c, sum_dist m hlab hfin c]

theorem res_inter (c : Dev nD) :
    Pipeline.afterTail₀ cfgs (dats m) 0 (V0 m) [hostOps1] c main_v39 = Cert.Spec.inter (feat m c) (labs m c) (cent m c) := by
  rw [tail_inter m (dats m) c]
  unfold Cert.Spec.inter
  funext _
  show Cert.Spec.interOf (cent m c)
      (∑ h : Fin 2, ((dats m 0 c).arrAt 4 cfg0.N (ix3 h (1 : Fin 8) (0 : Fin 512)) : EReal))
      (∑ h : Fin 2, ((dats m 0 c).arrAt 4 cfg0.N (ix3 h (2 : Fin 8) (0 : Fin 512)) : EReal))
      (fun d => ∑ h : Fin 2, ((dats m 0 c).arrAt 4 cfg0.N (ix3 h (3 : Fin 8) d) : EReal))
      (fun d => ∑ h : Fin 2, ((dats m 0 c).arrAt 4 cfg0.N (ix3 h (4 : Fin 8) d) : EReal)) = _
  rw [final m c, sum_cnt0 m c, sum_cnt1 m c]
  simp only [sum_seg0 m c, sum_seg1 m c]

include hlab hfin in
/-- The kernel program's run with both results at the closed formulas, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v21) = Cert.Spec.mean (feat m c) (labs m c) (cent m c)
      ∧ r.2.mem ((c.tc : Thread nD τ).loc main_v39) = Cert.Spec.inter (feat m c) (labs m c) (cent m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v21 (Pipeline.mem_restRefs_of main_v21 (by decide) (by decide))).trans (res_mean m hlab hfin c),
      ((h c).2 main_v39 (Pipeline.mem_restRefs_of main_v39 (by decide) (by decide))).trans (res_inter m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RScatter.lean ====
/-
  The reference's three data-dependent host operations read at an index, over the extended reals: the row gather reads the
  table at the start index read signed and clamped into the table's rows; a scatter-add read at class k is the operand there
  plus the sum of the updates whose scatter index, read signed and not clamped, is k (an update whose index is outside the
  operand is dropped).
-/
import proofs.«409271_j34608846471397_2_alg».proof.ReferenceIdeal
import proofs.«409271_j34608846471397_2_alg».proof.Proof.Spec
import Idealize.ShloMosaic.PureOps.Ideal.Laws
import Idealize.ShloMosaic.Lib.ValueIdxRank1

noncomputable section

open scoped BigOperators

namespace Cert.ReferenceIdeal.RScatter

open Idealize.ShloMosaic Idealize.ShloMosaic.ValueIdx
open Cert.ReferenceIdeal

variable [Cert.ReferenceIdeal.Facts]

/-! ## Two general facts -/

/-- An update lands at the operand index t exactly when, on every axis, the window's start plus the window coordinate is
    t's coordinate: the sum is then inside the operand on every axis, and the landing index is built from those sums. -/
theorem resultIdx?_eq_some_iff {s si u : Shape} (sd : ScatterDims s si u) {w : Nat} (j : u.Idx) (idx : IVec si w) (t : s.Idx) :
    sd.resultIdx? j idx = some t ↔ ∀ a, sd.start j idx a + sd.window j a = ((t a).val : Int) := by
  unfold ScatterDims.resultIdx?
  constructor
  · intro h
    split at h
    · rename_i hh
      intro a
      have h1 := congrFun (Option.some.inj h) a
      have h2 := congrArg Fin.val h1
      simp only at h2
      have := (hh a).1
      omega
    · cases h
  · intro h
    have hh : ∀ a, 0 ≤ sd.start j idx a + sd.window j a ∧ sd.start j idx a + sd.window j a < s.size a := fun a => by
      rw [h a]; exact ⟨Int.natCast_nonneg _, by exact_mod_cast (t a).isLt⟩
    rw [dif_pos hh]
    congr 1
    funext a
    refine Fin.ext ?_
    show (sd.start j idx a + sd.window j a).toNat = (t a).val
    rw [h a]; exact Int.toNat_natCast _

/-- A 32-bit word read signed is the class number k < 1000 exactly when it is the word of k (k is far below 2^31, so the
    word of k reads back as k, and reading signed is injective). -/
theorem toInt_eq_iff (b : BitVec 32) (k : Fin 1000) : b.toInt = (k.val : Int) ↔ b = BitVec.ofNat 32 k.val := by
  have hk : (BitVec.ofNat 32 k.val).toInt = (k.val : Int) := by
    rw [BitVec.toInt_ofNat']
    exact Int.bmod_eq_of_le_mul_two (by have := k.isLt; omega) (by have := k.isLt; omega)
  constructor
  · intro h; exact BitVec.eq_of_toInt_eq (h.trans hk.symm)
  · intro h; rw [h]; exact hk

/-! ## The row gather: operand [1000, 512], start indices [32768, 1], result [32768, 512]

  Axis 0 of the operand is collapsed and is the one axis the start index names; axis 1 is the one offset axis. -/

private abbrev gd : GatherDims S1000x512 S32768x1 S32768x512 := gather_S1000x512_S32768x1_S32768x512_1_0_n_n_0_1_1512

/-- Result index (i, d) reads its one start-index component at (i, 0). -/
theorem gather_siIdx (i : Fin 32768) (d : Fin 512) (h : List.idxOf (0 : Fin 2) gd.startIndexMap < gd.startIndexMap.length) :
    gd.siIdx (ix2 i d) ⟨List.idxOf (0 : Fin 2) gd.startIndexMap, h⟩ = ix2 i (0 : Fin 1) := by
  funext b; refine Fin.ext ?_
  match b with
  | ⟨0, _⟩ => rfl
  | ⟨1, _⟩ => rfl

/-- The row gather at (i, d): the table at the clamped row the i-th start index names, column d. -/
theorem gather_apply (x : FVec Ideal S1000x512 .f32) (idx : IVec S32768x1 32) (i : Fin 32768) (d : Fin 512) :
    (Host.gather gather_S1000x512_S32768x1_S32768x512_1_0_n_n_0_1_1512 x idx (ix2 i d) : EReal)
      = x (ix2 (Cert.Spec.row (idx (ix2 i (0 : Fin 1)))) d) := by
  unfold Host.gather
  congr 1
  funext a
  refine Fin.ext ?_
  match a with
  | ⟨0, _⟩ =>
    -- axis 0: no batching, collapsed (offset 0); the start is the index read signed, clamped into [0, 1000 - 1]
    show gd.start (ix2 i d) idx 0 + gd.batchCoord (ix2 i d) 0 + gd.offCoord (ix2 i d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    rw [gather_siIdx]
    rfl
  | ⟨1, _⟩ =>
    -- axis 1: no batching, not named by the start index (start 0); the offset is the result's column
    show gd.start (ix2 i d) idx 1 + gd.batchCoord (ix2 i d) 1 + gd.offCoord (ix2 i d) 1 = _
    rw [GatherDims.batchCoord_eq_zero _ _ _ List.not_mem_nil]
    have h10 : ¬ ((1 : Fin 2) = 0) := by decide
    have hs : gd.start (ix2 i d) idx 1 = 0 := by
      unfold GatherDims.start
      rw [dif_neg (show (1 : Fin 2) ∉ gd.startIndexMap from fun h => h10 (List.mem_singleton.mp h))]
    have ho : gd.offCoord (ix2 i d) 1 = d.val := by
      unfold GatherDims.offCoord
      rw [dif_pos (show (1 : Fin 2) ∈ gd.sKept from
        (GatherDims.mem_sKept _ _).mpr ⟨fun h => h10 (List.mem_singleton.mp h), List.not_mem_nil⟩)]
      rfl
    rw [hs, ho]
    simp only [Nat.add_zero, Nat.zero_add]

/-! ## The row scatter-add: operand [1000, 512], scatter indices [32768, 1], updates [32768, 512]

  Axis 0 of the operand is inserted and is the one axis the scatter index names; axis 1 carries the one window axis. -/

private abbrev sd2 : ScatterDims S1000x512 S32768x1 S32768x512 := scatter_S1000x512_S32768x1_S32768x512_1_0_0_1

/-- Update index (i, d) reads its one scatter-index component at (i, 0). -/
theorem sd2_siIdx (i : Fin 32768) (d : Fin 512)
    (h : List.idxOf (0 : Fin 2) sd2.scatterDimsToOperandDims < sd2.scatterDimsToOperandDims.length) :
    sd2.siIdx (ix2 i d) ⟨List.idxOf (0 : Fin 2) sd2.scatterDimsToOperandDims, h⟩ = ix2 i (0 : Fin 1) := by
  funext b; refine Fin.ext ?_
  match b with
  | ⟨0, _⟩ => rfl
  | ⟨1, _⟩ => rfl

/-- On axis 0 the window starts at the scatter index read signed. -/
theorem sd2_start0 (idx : IVec S32768x1 32) (i : Fin 32768) (d : Fin 512) :
    sd2.start (ix2 i d) idx 0 = (idx (ix2 i (0 : Fin 1))).toInt := by
  unfold ScatterDims.start
  rw [dif_pos (show (0 : Fin 2) ∈ sd2.scatterDimsToOperandDims from List.mem_singleton.mpr rfl)]
  rw [sd2_siIdx]

/-- Axis 1 is not named by the scatter index: the window starts at 0. -/
theorem sd2_start1 (idx : IVec S32768x1 32) (i : Fin 32768) (d : Fin 512) :
    sd2.start (ix2 i d) idx 1 = 0 := by
  have h10 : ¬ ((1 : Fin 2) = 0) := by decide
  unfold ScatterDims.start
  rw [dif_neg (show (1 : Fin 2) ∉ sd2.scatterDimsToOperandDims from fun h => h10 (List.mem_singleton.mp h))]

/-- Axis 0 is inserted: its window coordinate is 0. -/
theorem sd2_window0 (i : Fin 32768) (d : Fin 512) : sd2.window (ix2 i d) 0 = 0 := by
  unfold ScatterDims.window
  rw [dif_neg (show (0 : Fin 2) ∉ sd2.sKept from fun h =>
    of_decide_eq_true (List.mem_filter.mp h).2 (List.mem_singleton.mpr rfl))]

/-- Axis 1 carries the window axis: its window coordinate is the update's column. -/
theorem sd2_window1 (i : Fin 32768) (d : Fin 512) : sd2.window (ix2 i d) 1 = d.val := by
  unfold ScatterDims.window
  have h10 : ¬ ((1 : Fin 2) = 0) := by decide
  rw [dif_pos (show (1 : Fin 2) ∈ sd2.sKept from
    List.mem_filter.mpr ⟨List.mem_finRange _, decide_eq_true (fun h => h10 (List.mem_singleton.mp h))⟩)]
  rfl

/-- The update at (i, d') lands at (k, d) exactly when the i-th scatter index is the word of k and d' = d. -/
theorem sd2_lands (idx : IVec S32768x1 32) (i : Fin 32768) (d' : Fin 512) (k : Fin 1000) (d : Fin 512) :
    sd2.resultIdx? (ix2 i d') idx = some (ix2 k d) ↔ idx (ix2 i (0 : Fin 1)) = BitVec.ofNat 32 k.val ∧ d' = d := by
  rw [resultIdx?_eq_some_iff, ← toInt_eq_iff]
  constructor
  · intro h
    have h0 := h 0
    have h1 := h 1
    rw [sd2_start0, sd2_window0] at h0
    rw [sd2_start1, sd2_window1] at h1
    refine ⟨?_, Fin.ext ?_⟩
    · have h0' : (idx (ix2 i (0 : Fin 1))).toInt + ((0 : Nat) : Int) = (k.val : Int) := h0
      omega
    · have h1' : (0 : Int) + (d'.val : Int) = (d.val : Int) := h1
      omega
  · rintro ⟨h0, h1⟩ a
    match a with
    | ⟨0, _⟩ =>
      show sd2.start (ix2 i d') idx 0 + ((sd2.window (ix2 i d') 0 : Nat) : Int) = (k.val : Int)
      rw [sd2_start0, sd2_window0, h0]; simp
    | ⟨1, _⟩ =>
      show sd2.start (ix2 i d') idx 1 + ((sd2.window (ix2 i d') 1 : Nat) : Int) = (d.val : Int)
      rw [sd2_start1, sd2_window1, h1]; simp

/-- The row scatter-add at (k, d): the operand there plus the sum over the update rows i whose index is k of the update at (i, d). -/
theorem scatter2_apply (x : FVec Ideal S1000x512 .f32) (idx : IVec S32768x1 32) (u : FVec Ideal S32768x512 .f32)
    (k : Fin 1000) (d : Fin 512) :
    (Host.scatterAdd (F := Ideal) scatter_S1000x512_S32768x1_S32768x512_1_0_0_1 x idx u (ix2 k d) : EReal)
      = x (ix2 k d) + ∑ i : Fin 32768, Cert.Spec.ind (BitVec.ofNat 32 k.val) (idx (ix2 i (0 : Fin 1))) * (u (ix2 i d) : EReal) := by
  unfold Host.scatterAdd
  rw [Ideal.hostScatterAdd_def]
  unfold Ideal.hostScatterAdd
  refine congrArg (fun z : EReal => x (ix2 k d) + z) ?_
  -- the sum over the updates that land at (k, d), as a sum over rows i and columns d' of a 0-or-update term
  rw [Finset.sum_filter, sum_idx2]
  refine Finset.sum_congr rfl fun i _ => ?_
  simp only [sd2_lands]
  unfold Cert.Spec.ind
  -- in row i only the column d' = d can land, and it does exactly when the row's index is the word of k
  by_cases hc : idx (ix2 i (0 : Fin 1)) = BitVec.ofNat 32 k.val
  · simp only [hc, true_and, if_true, one_mul]
    rw [Finset.sum_ite_eq']
    simp
  · simp only [hc, false_and, if_false, zero_mul]
    exact Finset.sum_const_zero

/-! ## The scalar scatter-add: operand [1000], scatter indices [32768, 1], updates [32768]

  The operand's one axis is inserted and named by the scatter index; the updates have no window axis. -/

private abbrev sd1 : ScatterDims S1000 S32768x1 S32768 := scatter_S1000_S32768x1_S32768_n_0_0_1

/-- Update index i reads its one scatter-index component at (i, 0). -/
theorem sd1_siIdx (i : Fin 32768)
    (h : List.idxOf (0 : Fin 1) sd1.scatterDimsToOperandDims < sd1.scatterDimsToOperandDims.length) :
    sd1.siIdx (ix1 i) ⟨List.idxOf (0 : Fin 1) sd1.scatterDimsToOperandDims, h⟩ = ix2 i (0 : Fin 1) := by
  funext b; refine Fin.ext ?_
  match b with
  | ⟨0, _⟩ => rfl
  | ⟨1, _⟩ => rfl

/-- The window starts at the scatter index read signed. -/
theorem sd1_start0 (idx : IVec S32768x1 32) (i : Fin 32768) :
    sd1.start (ix1 i) idx 0 = (idx (ix2 i (0 : Fin 1))).toInt := by
  unfold ScatterDims.start
  rw [dif_pos (show (0 : Fin 1) ∈ sd1.scatterDimsToOperandDims from List.mem_singleton.mpr rfl)]
  rw [sd1_siIdx]

/-- The one axis is inserted: its window coordinate is 0. -/
theorem sd1_window0 (i : Fin 32768) : sd1.window (ix1 i) 0 = 0 := by
  unfold ScatterDims.window
  rw [dif_neg (show (0 : Fin 1) ∉ sd1.sKept from fun h =>
    of_decide_eq_true (List.mem_filter.mp h).2 (List.mem_singleton.mpr rfl))]

/-- The update at i lands at k exactly when the i-th scatter index is the word of k. -/
theorem sd1_lands (idx : IVec S32768x1 32) (i : Fin 32768) (k : Fin 1000) :
    sd1.resultIdx? (ix1 i) idx = some (ix1 k) ↔ idx (ix2 i (0 : Fin 1)) = BitVec.ofNat 32 k.val := by
  rw [resultIdx?_eq_some_iff, ← toInt_eq_iff]
  constructor
  · intro h
    have h0 := h 0
    rw [sd1_start0, sd1_window0] at h0
    have h0' : (idx (ix2 i (0 : Fin 1))).toInt + ((0 : Nat) : Int) = (k.val : Int) := h0
    omega
  · intro h0 a
    obtain rfl : a = 0 := Subsingleton.elim _ _
    show sd1.start (ix1 i) idx 0 + ((sd1.window (ix1 i) 0 : Nat) : Int) = (k.val : Int)
    rw [sd1_start0, sd1_window0, h0]; simp

/-- The scalar scatter-add at k: the operand there plus the sum over the updates i whose index is k of the update at i. -/
theorem scatter1_apply (x : FVec Ideal S1000 .f32) (idx : IVec S32768x1 32) (u : FVec Ideal S32768 .f32) (k : Fin 1000) :
    (Host.scatterAdd (F := Ideal) scatter_S1000_S32768x1_S32768_n_0_0_1 x idx u (ix1 k) : EReal)
      = x (ix1 k) + ∑ i : Fin 32768, Cert.Spec.ind (BitVec.ofNat 32 k.val) (idx (ix2 i (0 : Fin 1))) * (u (ix1 i) : EReal) := by
  unfold Host.scatterAdd
  rw [Ideal.hostScatterAdd_def]
  unfold Ideal.hostScatterAdd
  refine congrArg (fun z : EReal => x (ix1 k) + z) ?_
  -- the sum over the updates that land at k, re-indexed by the update's one coordinate
  rw [Finset.sum_filter]
  refine (Equiv.sum_comp (idxEquiv1 (n := 32768)).symm _).symm.trans ?_
  refine Finset.sum_congr rfl fun i _ => ?_
  show (if sd1.resultIdx? (ix1 i) idx = some (ix1 k) then (u (ix1 i) : EReal) else 0) = _
  simp only [sd1_lands]
  unfold Cert.Spec.ind
  by_cases hc : idx (ix2 i (0 : Fin 1)) = BitVec.ofNat 32 k.val
  · simp only [hc, if_true, one_mul]
  · simp only [hc, if_false, zero_mul]

end Cert.ReferenceIdeal.RScatter

end
-- ==== Proof.RefRead.lean ====
/-
  The reference program read at an index: its two results are the closed formulas of Spec. The row gather reads the centre
  table at the label's clamped row (a non-negative label is not wrapped); each of the two scatter-adds, read at a class k, is
  the zero it starts from plus the sum of the updates whose label is k.
-/
import proofs.«409271_j34608846471397_2_alg».proof.Proof.Gen.ReferenceIdeal.Read
import proofs.«409271_j34608846471397_2_alg».proof.Proof.Spec
import proofs.«409271_j34608846471397_2_alg».proof.Proof.RScatter
import Idealize.ShloMosaic.Lib.StableHlo.Predicate
import Idealize.ShloMosaic.Lib.ValueIdxRank1

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! ## The first result: the wrapped label, the row gather, the squared distance, the clip, the mean -/
/-- A signed comparison "below zero" of a non-negative word fails, so the wrap-around select keeps the word. -/
theorem select_neg_wrap (a p : BitVec 32) (ha : 0 ≤ a.toInt) :
    Scalar.select (IntOp.cmpi .slt a 0#32) p a = a := by
  unfold Scalar.select IntOp.cmpi
  have h : a.slt 0#32 = false := by
    simp only [BitVec.slt, BitVec.toInt_zero, decide_eq_false_iff_not, not_lt]; exact ha
  rw [h]; rfl

/-- The wrapped label is the label itself when the label is non-negative. -/
theorem v4_apply (x1 : IVec S32768 32) (i : Fin 32768) (h : 0 ≤ (x1 (ix1 i)).toInt) :
    val_main_v4 (F := Ideal) x1 (ix1 i) = x1 (ix1 i) := by
  rw [val_main_v4_apply, val_main_v1_apply, val_main_v0_apply, val_main_c_apply]
  exact select_neg_wrap _ _ h

/-- The index the label column reads at row i is the row i of the label vector. -/
theorem idx_v5_ix (i : Fin 32768) : idx_main_v5 (ix2 i (0 : Fin 1)) = ix1 i :=
  funext fun a => Fin.ext (by match a with | ⟨0, _⟩ => rfl)

/-- The row gather at (i, d): the centre table at the label's clamped row. -/
theorem v6_apply (x1 : IVec S32768 32) (x2 : FVec Ideal S1000x512 .f32) (i : Fin 32768) (d : Fin 512)
    (h : 0 ≤ (x1 (ix1 i)).toInt) :
    (val_main_v6 (F := Ideal) x1 x2 (ix2 i d) : EReal) = x2 (ix2 (Cert.Spec.row (x1 (ix1 i))) d) := by
  unfold val_main_v6
  rw [Cert.ReferenceIdeal.RScatter.gather_apply, val_main_v5_apply, idx_v5_ix, v4_apply x1 i h]

/-- The index the row sum reads at (row i, term k) is (i, k). -/
theorem idx_v9_ix (i : Fin 32768) (k : Fin 512) : idx_main_v9 (ix1 i) k = ix2 i k :=
  funext fun a => Fin.ext (by match a with | ⟨0, _⟩ => rfl | ⟨1, _⟩ => rfl)

/-- The squared distance of row i: zero plus the sum over the columns of the squared differences. -/
theorem v9_apply (x0 : FVec Ideal S32768x512 .f32) (x1 : IVec S32768 32) (x2 : FVec Ideal S1000x512 .f32) (i : Fin 32768)
    (h : 0 ≤ (x1 (ix1 i)).toInt) :
    (val_main_v9 (F := Ideal) x0 x1 x2 (ix1 i) : EReal)
      = ∑ d : Fin 512, ((x0 (ix2 i d) : EReal) - x2 (ix2 (Cert.Spec.row (x1 (ix1 i))) d))
          * ((x0 (ix2 i d) : EReal) - x2 (ix2 (Cert.Spec.row (x1 (ix1 i))) d)) := by
  rw [val_main_v9_apply, val_main_cst_apply, Ideal.ofBits_def, Ideal.ofBits_zero_f32, zero_add]
  refine Finset.sum_congr rfl fun d _ => ?_
  rw [idx_v9_ix, val_main_v8_apply, val_main_v7_apply, v6_apply x1 x2 i d h, Ideal.mulf_def, Ideal.subf_def]

/-- The clipped distance of row i. -/
theorem v11_apply (x0 : FVec Ideal S32768x512 .f32) (x1 : IVec S32768 32) (x2 : FVec Ideal S1000x512 .f32) (i : Fin 32768)
    (h : 0 ≤ (x1 (ix1 i)).toInt) :
    (val_main_v11 (F := Ideal) x0 x1 x2 (ix1 i) : EReal) = Cert.Spec.dist x0 x1 x2 i := by
  rw [val_main_v11_apply, val_main_call0_v4_apply, val_main_call0_v3_apply, val_main_cst_2_apply,
    val_main_call0_v2_apply, val_main_call0_v1_apply, val_main_call0_v0_apply, val_main_cst_1_apply,
    val_main_v10_apply, v9_apply x0 x1 x2 i h,
    Ideal.minimumf_def, Ideal.maximumf_def, Ideal.hostUnary_sqrt_def, Ideal.ofBits_def, Ideal.ofBits_def]
  rfl

/-- The sum of the clipped distances over the row indices is the sum over the rows. -/
theorem sum_v11 (x0 : FVec Ideal S32768x512 .f32) (x1 : IVec S32768 32) (x2 : FVec Ideal S1000x512 .f32)
    (hlab : ∀ i : Fin 32768, 0 ≤ (x1 (ix1 i)).toInt ∧ (x1 (ix1 i)).toInt < 1000) :
    (∑ j : S32768.Idx, (val_main_v11 (F := Ideal) x0 x1 x2 j : EReal)) = ∑ i : Fin 32768, Cert.Spec.dist x0 x1 x2 i := by
  refine (Equiv.sum_comp (idxEquiv1 (n := 32768)).symm (fun j => (val_main_v11 (F := Ideal) x0 x1 x2 j : EReal))).symm.trans ?_
  exact Finset.sum_congr rfl fun i _ => v11_apply x0 x1 x2 i (hlab i).1

/-- The first result's stage is the mean clipped distance. -/
theorem mean_eq (x0 : FVec Ideal S32768x512 .f32) (x1 : IVec S32768 32) (x2 : FVec Ideal S1000x512 .f32)
    (hlab : ∀ i : Fin 32768, 0 ≤ (x1 (ix1 i)).toInt ∧ (x1 (ix1 i)).toInt < 1000) :
    Cert.ReferenceIdeal.Read.val_main_v13 (F := Ideal) x0 x1 x2 = Cert.Spec.mean x0 x1 x2 := by
  funext j
  rw [val_main_v13_apply, val_main_v12_apply, val_main_cst_3_apply, val_main_cst_4_apply,
    Ideal.hostDivf_def, Ideal.ofBits_def, Ideal.ofBits_def, Ideal.ofBits_zero_f32, zero_add,
    sum_v11 x0 x1 x2 hlab]
  rfl

/-! ## The second result: the class sums and counts, the updated centroids of classes 998 and 999, the closing chain -/

/-- The word of the 1.0 literal denotes one. -/
theorem ofBits_one_f32 : Ideal.ofBits .f32 0x3F800000#32 = 1 := IdealRules.sign_bit.ideal_onePat .f32

/-- The index the class-sum scatter's label column reads at row i is the row i of the label vector. -/
theorem idx_v15_ix (i : Fin 32768) : idx_main_v15 (ix2 i (0 : Fin 1)) = ix1 i :=
  funext fun a => Fin.ext (by match a with | ⟨0, _⟩ => rfl)

/-- The index the count scatter's label column reads at row i is the row i of the label vector. -/
theorem idx_v19_ix (i : Fin 32768) : idx_main_v19 (ix2 i (0 : Fin 1)) = ix1 i :=
  funext fun a => Fin.ext (by match a with | ⟨0, _⟩ => rfl)

/-- The class-sum scatter-add at (k, d): zero plus the sum of the feature rows whose label word is k, at column d. -/
theorem v16_apply (x0 : FVec Ideal S32768x512 .f32) (x1 : IVec S32768 32) (k : Fin 1000) (d : Fin 512) :
    (val_main_v16 (F := Ideal) x0 x1 (ix2 k d) : EReal) = Cert.Spec.seg (BitVec.ofNat 32 k.val) x0 x1 d := by
  unfold val_main_v16
  rw [Cert.ReferenceIdeal.RScatter.scatter2_apply, val_main_v14_apply, val_main_cst_5_apply,
    Ideal.ofBits_def, Ideal.ofBits_zero_f32, zero_add]
  unfold Cert.Spec.seg
  refine Finset.sum_congr rfl fun i _ => ?_
  rw [val_main_v15_apply, idx_v15_ix]

/-- The count scatter-add at k: zero plus one for every row whose label word is k. -/
theorem v20_apply (x1 : IVec S32768 32) (k : Fin 1000) :
    (val_main_v20 (F := Ideal) x1 (ix1 k) : EReal) = Cert.Spec.cnt (BitVec.ofNat 32 k.val) x1 := by
  unfold val_main_v20
  rw [Cert.ReferenceIdeal.RScatter.scatter1_apply, val_main_v18_apply, val_main_cst_7_apply,
    Ideal.ofBits_def, Ideal.ofBits_zero_f32, zero_add]
  unfold Cert.Spec.cnt
  refine Finset.sum_congr rfl fun i _ => ?_
  rw [val_main_v19_apply, idx_v19_ix, val_main_v17_apply, val_main_cst_6_apply, Ideal.ofBits_def,
    ofBits_one_f32, mul_one]

/-- The clamped count at k: the larger of the count and one. -/
theorem v22_apply (x1 : IVec S32768 32) (k : Fin 1000) :
    (val_main_v22 (F := Ideal) x1 (ix1 k) : EReal) = max (Cert.Spec.cnt (BitVec.ofNat 32 k.val) x1) Cert.Spec.one := by
  rw [val_main_v22_apply, val_main_call1_v1_apply, val_main_call1_v0_apply, val_main_cst_8_apply,
    v20_apply, Ideal.maximumf_def, Ideal.ofBits_def, max_comm]
  rfl

/-- The index the two broadcasts of the clamped count read at (k, d) is k. -/
theorem idx_v23_v24_ix (k : Fin 1000) (d : Fin 512) : idx_main_v23 (idx_main_v24 (ix2 k d)) = ix1 k :=
  funext fun a => Fin.ext (by match a with | ⟨0, _⟩ => rfl)

/-- The updated centroid at (k, d): the centre plus the class sum, divided by the clamped count. -/
theorem v25_apply (x0 : FVec Ideal S32768x512 .f32) (x1 : IVec S32768 32) (x2 : FVec Ideal S1000x512 .f32)
    (k : Fin 1000) (d : Fin 512) :
    (val_main_v25 (F := Ideal) x0 x1 x2 (ix2 k d) : EReal)
      = Ideal.div ((x2 (ix2 k d) : EReal) + Cert.Spec.seg (BitVec.ofNat 32 k.val) x0 x1 d)
          (max (Cert.Spec.cnt (BitVec.ofNat 32 k.val) x1) Cert.Spec.one) := by
  rw [val_main_v25_apply, val_main_v21_apply, val_main_v24_apply, val_main_v23_apply, idx_v23_v24_ix,
    v22_apply, v16_apply, Ideal.hostDivf_def, Ideal.addf_def]

/-- The index the first slice and its reshape read at column d is (998, d). -/
theorem idx_v26_v27_ix (d : Fin 512) : idx_main_v26 (idx_main_v27 (ix1 d)) = ix2 (998 : Fin 1000) d :=
  funext fun a => Fin.ext (by match a with | ⟨0, _⟩ => rfl | ⟨1, _⟩ => exact Nat.mod_eq_of_lt d.isLt)

/-- The index the second slice and its reshape read at column d is (999, d). -/
theorem idx_v28_v29_ix (d : Fin 512) : idx_main_v28 (idx_main_v29 (ix1 d)) = ix2 (999 : Fin 1000) d :=
  funext fun a => Fin.ext (by match a with | ⟨0, _⟩ => rfl | ⟨1, _⟩ => exact Nat.mod_eq_of_lt d.isLt)

/-- The updated centroid of class 998 at column d. -/
theorem v27_apply (x0 : FVec Ideal S32768x512 .f32) (x1 : IVec S32768 32) (x2 : FVec Ideal S1000x512 .f32) (d : Fin 512) :
    (val_main_v27 (F := Ideal) x0 x1 x2 (ix1 d) : EReal)
      = Ideal.div ((x2 (ix2 (998 : Fin 1000) d) : EReal) + Cert.Spec.seg 998#32 x0 x1 d)
          (max (Cert.Spec.cnt 998#32 x1) Cert.Spec.one) := by
  rw [val_main_v27_apply, val_main_v26_apply, idx_v26_v27_ix, v25_apply]
  rfl

/-- The updated centroid of class 999 at column d. -/
theorem v29_apply (x0 : FVec Ideal S32768x512 .f32) (x1 : IVec S32768 32) (x2 : FVec Ideal S1000x512 .f32) (d : Fin 512) :
    (val_main_v29 (F := Ideal) x0 x1 x2 (ix1 d) : EReal)
      = Ideal.div ((x2 (ix2 (999 : Fin 1000) d) : EReal) + Cert.Spec.seg 999#32 x0 x1 d)
          (max (Cert.Spec.cnt 999#32 x1) Cert.Spec.one) := by
  rw [val_main_v29_apply, val_main_v28_apply, idx_v28_v29_ix, v25_apply]
  rfl

/-- The sum of the squared centroid differences over the column indices is the sum over the columns. -/
theorem sum_v31 (x0 : FVec Ideal S32768x512 .f32) (x1 : IVec S32768 32) (x2 : FVec Ideal S1000x512 .f32) :
    (∑ j : S512.Idx, (val_main_v31 (F := Ideal) x0 x1 x2 j : EReal))
      = ∑ d : Fin 512,
          (Ideal.div ((x2 (ix2 (998 : Fin 1000) d) : EReal) + Cert.Spec.seg 998#32 x0 x1 d) (max (Cert.Spec.cnt 998#32 x1) Cert.Spec.one)
            - Ideal.div ((x2 (ix2 (999 : Fin 1000) d) : EReal) + Cert.Spec.seg 999#32 x0 x1 d) (max (Cert.Spec.cnt 999#32 x1) Cert.Spec.one))
          * (Ideal.div ((x2 (ix2 (998 : Fin 1000) d) : EReal) + Cert.Spec.seg 998#32 x0 x1 d) (max (Cert.Spec.cnt 998#32 x1) Cert.Spec.one)
            - Ideal.div ((x2 (ix2 (999 : Fin 1000) d) : EReal) + Cert.Spec.seg 999#32 x0 x1 d) (max (Cert.Spec.cnt 999#32 x1) Cert.Spec.one)) := by
  refine (Equiv.sum_comp (idxEquiv1 (n := 512)).symm (fun j => (val_main_v31 (F := Ideal) x0 x1 x2 j : EReal))).symm.trans ?_
  refine Finset.sum_congr rfl fun d _ => ?_
  show (val_main_v31 (F := Ideal) x0 x1 x2 (ix1 d) : EReal) = _
  rw [val_main_v31_apply, val_main_v30_apply, v27_apply, v29_apply, Ideal.mulf_def, Ideal.subf_def]

/-- The second result's stage is the closing chain over the class counts and class sums. -/
theorem inter_eq (x0 : FVec Ideal S32768x512 .f32) (x1 : IVec S32768 32) (x2 : FVec Ideal S1000x512 .f32) :
    Cert.ReferenceIdeal.Read.val_main_v35 (F := Ideal) x0 x1 x2 = Cert.Spec.inter x0 x1 x2 := by
  funext j
  rw [val_main_v35_apply, val_main_v34_apply, val_main_v33_apply, val_main_v32_apply, val_main_cst_9_apply,
    val_main_cst_10_apply, val_main_cst_11_apply, Ideal.mulf_def, Ideal.hostDivf_def, Ideal.hostUnary_sqrt_def,
    Ideal.ofBits_def, Ideal.ofBits_def, Ideal.ofBits_def, Ideal.ofBits_zero_f32, zero_add, sum_v31]
  rfl

/-! ## The run -/

/-- The reference's run with both results at the closed formulas, the arguments unchanged. -/
theorem run (m : (ℓ : Loc nD τ sig) → Buf (Elt Ideal) ℓ) (ρ : Dev nD → PrngReg)
    (hlab : ∀ c : Dev nD, ∀ i : Fin 32768, 0 ≤ ((m ((c.tc : Thread nD τ).loc main_arg1) : IVec S32768 32) (ix1 i)).toInt
      ∧ ((m ((c.tc : Thread nD τ).loc main_arg1) : IVec S32768 32) (ix1 i)).toInt < 1000) :
    θ_run defs (onTc (τ := τ) (main (F := Ideal))) ⟨m, fun _ => 0, ρ⟩ fun r => ∀ c : Dev nD,
      r.2.mem ((c.tc : Thread nD τ).loc main_v13)
          = Cert.Spec.mean (m ((c.tc : Thread nD τ).loc main_arg0)) (m ((c.tc : Thread nD τ).loc main_arg1)) (m ((c.tc : Thread nD τ).loc main_arg2))
      ∧ r.2.mem ((c.tc : Thread nD τ).loc main_v35)
          = Cert.Spec.inter (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans ((val_main_v13_eq _ _ _).trans (mean_eq _ _ _ (hlab c))),
      (h c).2.1.trans ((val_main_v35_eq m c).trans (inter_eq _ _ _)), (h c).2.2⟩)
    (Cert.ReferenceIdeal.Value.run (F := Ideal) m ρ)

end Cert.ReferenceIdeal.RefValue

end
-- ==== Proof.PreFacts.lean ====
/-
  What the precondition says of the arguments: every label lies in [0, 1000) as a signed integer, and every entry of the
  centre table is a real number.

  The precondition is a conjunction of three bits, each an "and" over all indices of an array of comparison bits: |f| < +inf,
  |cen| < +inf, and 0 <= lab < 1000 (signed). A conjunction that is 1 has both conjuncts 1; an "and" over all indices that is 1,
  started from 1, has a 1 at every index; an absolute value max x (-x) strictly below +inf excludes x = +inf and x = -inf, so x
  is a real number; and a signed comparison bit that is 1 is the order of the signed readings.
-/
import proofs.«409271_j34608846471397_2_alg».proof.Pre_finite_inputs
import proofs.«409271_j34608846471397_2_alg».proof.Proof.Spec
import Idealize.ShloMosaic.Lib.ReduceAll
import Idealize.ShloMosaic.Lib.StableHlo.Predicate

noncomputable section

namespace Cert.PreFacts

open Idealize.ShloMosaic Idealize.ShloMosaic.ValueIdx

variable [Cert.Pre_finite_inputs.Facts]

/-- The scalar shape has one index. -/
instance : Subsingleton Cert.Pre_finite_inputs.S_.Idx := ⟨fun a b => funext fun d => d.elim0⟩

/-- An extended real whose absolute value max x (-x) compares strictly below the word of +inf is a real number:
    that word denotes the top element, and max x (-x) is the top element both at x = top and at x = bottom. -/
theorem real_of_abs_lt (x : EReal)
    (hx : Ideal.cmp .olt (max x (-x)) (Ideal.ofBits .f32 0x7F800000#32) = 1#1) : ∃ r : ℝ, x = (r : EReal) := by
  have htop : Ideal.ofBits .f32 0x7F800000#32 = (⊤ : EReal) := by
    simp [Ideal.ofBits, Ideal.ieee]
  rw [htop] at hx
  induction x using EReal.rec with
  | bot => simp [Ideal.cmp] at hx
  | top => simp [Ideal.cmp] at hx
  | coe r => exact ⟨r, rfl⟩

/-- The precondition read back at every index: the centre table's absolute values lie below +inf, and every label word
    passes both signed comparisons. (The conjunct on the features is not needed and is dropped.) -/
theorem split (f : FVec Ideal Cert.Spec.SF .f32) (lab : IVec Cert.Spec.SL 32) (cen : FVec Ideal Cert.Spec.SC .f32)
    (h : Cert.Pre_finite_inputs.fn (F := Ideal) f lab cen = fun _ => 1#1) :
    (∀ j : Cert.Spec.SC.Idx, Ideal.cmp .olt (max (cen j) (-(cen j))) (Ideal.ofBits .f32 0x7F800000#32) = 1#1) ∧
    (∀ i : Cert.Spec.SL.Idx, IntOp.cmpi .sge (lab i) 0#32 = 1#1 ∧ IntOp.cmpi .slt (lab i) 1000#32 = 1#1) := by
  have e := congrFun h ValueIdx.ix0
  unfold Cert.Pre_finite_inputs.fn at e
  dsimp only at e
  -- the two outer conjunctions, at the one index of the scalar shape
  simp only [andi, IntOp.andi_eq_one] at e
  obtain ⟨⟨-, h2⟩, h3⟩ := e
  refine ⟨fun j => ?_, fun i => ?_⟩
  · -- an "and" over both axes that is 1 has a 1 at index j; that bit is the comparison of |cen j| with the broadcast constant
    exact Host.reduce_andi_all _ _ _ _ _ h2 j
  · -- an "and" over the axis that is 1 has a 1 at index i; that bit is the conjunction of the two comparisons
    exact IntOp.andi_eq_one.1 (Host.reduce_andi_all _ _ _ _ _ h3 i)

/-- Every label is a signed integer in [0, 1000). -/
theorem lab_range (f : FVec Ideal Cert.Spec.SF .f32) (lab : IVec Cert.Spec.SL 32) (cen : FVec Ideal Cert.Spec.SC .f32)
    (h : Cert.Pre_finite_inputs.fn (F := Ideal) f lab cen = fun _ => 1#1) :
    ∀ i : Fin 32768, 0 ≤ (lab (ix1 i)).toInt ∧ (lab (ix1 i)).toInt < 1000 := by
  intro i
  obtain ⟨h0, h1⟩ := (split f lab cen h).2 (ix1 i)
  -- a signed "greater or equal" bit and a signed "less than" bit that are 1 order the signed readings
  rw [IntOp.cmpi_sge] at h0
  rw [IntOp.cmpi_slt] at h1
  have e0 : (0#32 : BitVec 32).toInt = 0 := by decide
  have e1 : (1000#32 : BitVec 32).toInt = 1000 := by decide
  rw [e0] at h0
  rw [e1] at h1
  exact ⟨h0, h1⟩

/-- Every entry of the centre table is a real number. -/
theorem cen_finite (f : FVec Ideal Cert.Spec.SF .f32) (lab : IVec Cert.Spec.SL 32) (cen : FVec Ideal Cert.Spec.SC .f32)
    (h : Cert.Pre_finite_inputs.fn (F := Ideal) f lab cen = fun _ => 1#1) :
    ∀ j : Cert.Spec.SC.Idx, ∃ r : ℝ, (cen j : EReal) = (r : EReal) :=
  fun j => real_of_abs_lt (cen j) ((split f lab cen h).1 j)

end Cert.PreFacts

end
-- ==== Proof.lean ====
/-
  The certificate's five claims.

  The kernel computes, in one streaming pass over 16 tiles of 2048 rows, the sum of the rows' clipped distances to their
  class centres and, for the two classes 998 and 999 only, the class counts and the class sums of the feature rows; the
  reference computes the mean distance from a row gather and every class's count and sum by scatter-adds, and reads classes
  998 and 999 off those. Over the extended reals both programs' results are the closed formulas of Proof/Spec.lean, for labels
  in [0, 1000) and a finite centre table (both from the precondition): the kernel by Proof/KValue.lean (the gather as a
  one-hot matrix product, the sums reassociated from tiles and halves to all rows), the reference by Proof/RefRead.lean.
  The ideal pass rewrote nothing, so the idealization claim is trivial; the two kernel programs' frames are the generated
  ones, the reference's is its run with the results dropped.
-/
import proofs.«409271_j34608846471397_2_alg».proof.Defs
import proofs.«409271_j34608846471397_2_alg».proof.Proof.Gen.Kernel.Frame
import proofs.«409271_j34608846471397_2_alg».proof.Proof.KValue
import proofs.«409271_j34608846471397_2_alg».proof.Proof.RefRead
import proofs.«409271_j34608846471397_2_alg».proof.Proof.PreFacts
import proofs.«409271_j34608846471397_2_alg».proof.Proof.Gen.Pre_finite_inputs

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Under the precondition the labels lie in [0, 1000) and the centre table is finite; then both runs end with both results
    at the same closed formulas of arguments that agree. -/
theorem algebraic : Cert.algebraic_KernelIdeal_ReferenceIdeal := by
  intro m ρ m' ρ' hpre hagree
  have hlab : ∀ c : Dev Cert.KernelIdeal.nD, ∀ i : Fin 32768,
      0 ≤ ((Cert.KernelIdeal.HostV.labs m c) (ix1 i)).toInt ∧ ((Cert.KernelIdeal.HostV.labs m c) (ix1 i)).toInt < 1000 :=
    fun c => Cert.PreFacts.lab_range _ _ _ (hpre c)
  have hfin : ∀ c : Dev Cert.KernelIdeal.nD, ∀ j : Cert.Spec.SC.Idx,
      ∃ r : ℝ, (Cert.KernelIdeal.HostV.cent m c j : EReal) = (r : EReal) :=
    fun c => Cert.PreFacts.cen_finite _ _ _ (hpre c)
  have hlab' : ∀ c : Dev Cert.ReferenceIdeal.nD, ∀ i : Fin 32768,
      0 ≤ ((m' ((c.tc : Thread Cert.ReferenceIdeal.nD Cert.ReferenceIdeal.τ).loc Cert.ReferenceIdeal.main_arg1) : IVec Cert.ReferenceIdeal.S32768 32) (ix1 i)).toInt
      ∧ ((m' ((c.tc : Thread Cert.ReferenceIdeal.nD Cert.ReferenceIdeal.τ).loc Cert.ReferenceIdeal.main_arg1) : IVec Cert.ReferenceIdeal.S32768 32) (ix1 i)).toInt < 1000 := by
    intro c i
    rw [(hagree c).2.1]
    exact hlab c i
  refine ⟨fun c => Cert.Spec.mean (Cert.KernelIdeal.HostV.feat m c) (Cert.KernelIdeal.HostV.labs m c) (Cert.KernelIdeal.HostV.cent m c),
    fun c => Cert.Spec.inter (Cert.KernelIdeal.HostV.feat m c) (Cert.KernelIdeal.HostV.labs m c) (Cert.KernelIdeal.HostV.cent m c),
    Cert.KernelIdeal.KValue.run m hlab hfin ρ, ?_⟩
  refine (θ_run Cert.ReferenceIdeal.defs _ _).mono (fun _ h c => ⟨(h c).1.trans ?_, (h c).2.1.trans ?_, (h c).2.2⟩)
    (Cert.ReferenceIdeal.RefValue.run m' ρ' hlab')
  · rw [(hagree c).1, (hagree c).2.1, (hagree c).2.2]
  · rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
